-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x128 : Shape := ⟨2, ![4096, 128]⟩
abbrev S128x256 : Shape := ⟨2, ![128, 256]⟩
abbrev S1x256 : Shape := ⟨2, ![1, 256]⟩
abbrev S256x256 : Shape := ⟨2, ![256, 256]⟩
abbrev S4096x256 : Shape := ⟨2, ![4096, 256]⟩
abbrev S64x512 : Shape := ⟨2, ![64, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S4096x256 : S_.BroadcastsInDim S4096x256 (![] : Fin 0 → Fin S4096x256.rank)
  reducesTo_S4096x256_S_d0_1 : S4096x256.ReducesTo [0, 1] S_
  bcast_S_S64x512 : S_.BroadcastsInDim S64x512 (![] : Fin 0 → Fin S64x512.rank)
  reducesTo_S64x512_S_d0_1 : S64x512.ReducesTo [0, 1] S_

variable [Facts]

def fn_part2 {F : FTy → Type} [FloatOps F] (main_arg7 : FVec F S64x512 .f32) (main_v33 : IVec S_ 1) : IVec S_ 1 :=
  let main_v34 : FVec F S64x512 .f32 := Host.absf main_arg7
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  main_v38

def fn_part1 {F : FTy → Type} [FloatOps F] (main_arg4 : FVec F S256x256 .f32) (main_arg5 : FVec F S1x256 .f32) (main_arg6 : FVec F S4096x256 .f32) (main_arg7 : FVec F S64x512 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x128 .f32) (main_arg2 : FVec F S128x256 .f32) (main_arg3 : FVec F S1x256 .f32) (main_arg4 : FVec F S256x256 .f32) (main_arg5 : FVec F S1x256 .f32) (main_arg6 : FVec F S4096x256 .f32) (main_arg7 : FVec F S64x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_v13 main_v16
-- ==== Kernel.lean ====
abbrev S4096x4096 : Shape := ⟨2, ![4096, 4096]⟩
abbrev S4096x128 : Shape := ⟨2, ![4096, 128]⟩
abbrev S128x256 : Shape := ⟨2, ![128, 256]⟩
abbrev S1x256 : Shape := ⟨2, ![1, 256]⟩
abbrev S256x256 : Shape := ⟨2, ![256, 256]⟩
abbrev S4096x256 : Shape := ⟨2, ![4096, 256]⟩
abbrev S64x512 : Shape := ⟨2, ![64, 512]⟩
abbrev S64x256 : Shape := ⟨2, ![64, 256]⟩
abbrev S256x64 : Shape := ⟨2, ![256, 64]⟩
abbrev S_ : Shape := ⟨0, ![]⟩
abbrev S256x128 : Shape := ⟨2, ![256, 128]⟩
abbrev S64 : Shape := ⟨1, ![64]⟩
abbrev S1x64 : Shape := ⟨2, ![1, 64]⟩
abbrev S1x128 : Shape := ⟨2, ![1, 128]⟩
abbrev S4096x64 : Shape := ⟨2, ![4096, 64]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256x4096 : Shape := ⟨2, ![256, 4096]⟩
abbrev S256 : Shape := ⟨1, ![256]⟩
abbrev S256x1 : Shape := ⟨2, ![256, 1]⟩

abbrev nBuf : Space → Nat
  | .hbm => 34
  | .vmem => 27
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x256, .f32⟩
  | .hbm, ⟨3, _⟩ => ⟨S1x256, .f32⟩
  | .hbm, ⟨4, _⟩ => ⟨S256x256, .f32⟩
  | .hbm, ⟨5, _⟩ => ⟨S1x256, .f32⟩
  | .hbm, ⟨6, _⟩ => ⟨S4096x256, .f32⟩
  | .hbm, ⟨7, _⟩ => ⟨S64x512, .f32⟩
  | .hbm, ⟨8, _⟩ => ⟨S64x256, .f32⟩
  | .hbm, ⟨9, _⟩ => ⟨S256x64, .f32⟩
  | .hbm, ⟨10, _⟩ => ⟨S256x64, .bf16⟩
  | .hbm, ⟨11, _⟩ => ⟨S_, .i32⟩
  | .hbm, ⟨12, _⟩ => ⟨S_, .bf16⟩
  | .hbm, ⟨13, _⟩ => ⟨S256x128, .bf16⟩
  | .hbm, ⟨14, _⟩ => ⟨S64x256, .f32⟩
  | .hbm, ⟨15, _⟩ => ⟨S256x64, .f32⟩
  | .hbm, ⟨16, _⟩ => ⟨S256x64, .bf16⟩
  | .hbm, ⟨17, _⟩ => ⟨S_, .i32⟩
  | .hbm, ⟨18, _⟩ => ⟨S_, .bf16⟩
  | .hbm, ⟨19, _⟩ => ⟨S256x128, .bf16⟩
  | .hbm, ⟨20, _⟩ => ⟨S64x512, .f32⟩
  | .hbm, ⟨21, _⟩ => ⟨S_, .f32⟩
  | .hbm, ⟨22, _⟩ => ⟨S64, .f32⟩
  | .hbm, ⟨23, _⟩ => ⟨S1x64, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S128x256, .bf16⟩
  | .hbm, ⟨28, _⟩ => ⟨S256x256, .bf16⟩
  | .hbm, ⟨29, _⟩ => ⟨S4096x256, .bf16⟩
  | .hbm, ⟨30, _⟩ => ⟨S4096x128, .f32⟩
  | .hbm, ⟨31, _⟩ => ⟨S4096x256, .bf16⟩
  | .hbm, ⟨32, _⟩ => ⟨S4096x128, .f32⟩
  | .hbm, ⟨33, _⟩ => ⟨S4096x64, .f32⟩
  | .local _ .vmem, ⟨0, _⟩ => ⟨S512x128, .f32⟩
  | .local _ .vmem, ⟨1, _⟩ => ⟨S512x128, .f32⟩
  | .local _ .vmem, ⟨2, _⟩ => ⟨S128x256, .bf16⟩
  | .local _ .vmem, ⟨3, _⟩ => ⟨S512x256, .f32⟩
  | .local _ .vmem, ⟨4, _⟩ => ⟨S512x256, .f32⟩
  | .local _ .vmem, ⟨5, _⟩ => ⟨S256x128, .bf16⟩
  | .local _ .vmem, ⟨6, _⟩ => ⟨S1x128, .f32⟩
  | .local _ .vmem, ⟨7, _⟩ => ⟨S512x256, .bf16⟩
  | .local _ .vmem, ⟨8, _⟩ => ⟨S512x256, .bf16⟩
  | .local _ .vmem, ⟨9, _⟩ => ⟨S512x128, .f32⟩
  | .local _ .vmem, ⟨10, _⟩ => ⟨S512x128, .f32⟩
  | .local _ .vmem, ⟨11, _⟩ => ⟨S256x4096, .f32⟩
  | .local _ .vmem, ⟨12, _⟩ => ⟨S256x4096, .f32⟩
  | .local _ .vmem, ⟨13, _⟩ => ⟨S4096x256, .bf16⟩
  | .local _ .vmem, ⟨14, _⟩ => ⟨S1x256, .f32⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x4096, .f32⟩
  | .local _ .vmem, ⟨19, _⟩ => ⟨S256x4096, .f32⟩
  | .local _ .vmem, ⟨20, _⟩ => ⟨S4096x256, .bf16⟩
  | .local _ .vmem, ⟨21, _⟩ => ⟨S1x256, .f32⟩
  | .local _ .vmem, ⟨22, _⟩ => ⟨S256x128, .bf16⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_call0_v0 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_0 : Ref sig .tc := ⟨.hbm, 17, rfl⟩
abbrev main_call0_call1_v0 : Ref sig .tc := ⟨.hbm, 18, rfl⟩
abbrev main_call0_v7 : Ref sig .tc := ⟨.hbm, 19, rfl⟩
abbrev main_call0_v8 : Ref sig .tc := ⟨.hbm, 20, rfl⟩
abbrev main_call0_cst : Ref sig .tc := ⟨.hbm, 21, rfl⟩
abbrev main_call0_v9 : Ref sig .tc := ⟨.hbm, 22, rfl⟩
abbrev main_call0_v10 : Ref sig .tc := ⟨.hbm, 23, rfl⟩
abbrev main_call0_c_1 : Ref sig .tc := ⟨.hbm, 24, rfl⟩
abbrev main_call0_call2_v0 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14_0 : Ref sig .tc := ⟨.hbm, 29, rfl⟩
abbrev main_call0_v14_1 : Ref sig .tc := ⟨.hbm, 30, rfl⟩
abbrev main_call0_v15 : Ref sig .tc := ⟨.hbm, 31, rfl⟩
abbrev main_call0_v16 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S64x512_S64x256_0_0 : S64x512.Slices ![0, 0] S64x256
  transposes_S64x256_S256x64_1_0 : S64x256.Transposes [1, 0] S256x64
  bitsLt_bf16_f32 : FTy.bits .bf16 < FTy.bits .f32
  pads_S256x64_S256x128_000_0640 : S256x64.Pads (![0, 0] : Fin 2 → Nat) ![0, 64] ![0, 0] S256x128
  h_S_ : 0 < S_.numel
  slices_S64x512_S64x256_0_256 : S64x512.Slices ![0, 256] S64x256
  reducesTo_S64x512_S64_d1 : S64x512.ReducesTo [1] S64
  bcast_S64_S1x64_1 : S64.BroadcastsInDim S1x64 (![1] : Fin 1 → Fin S1x64.rank)
  pads_S1x64_S1x128_000_0640 : S1x64.Pads (![0, 0] : Fin 2 → Nat) ![0, 64] ![0, 0] S1x128
  slices_S4096x128_S4096x64_0_0 : S4096x128.Slices ![0, 0] S4096x64
  inb_S512x128_S512x128_0_0 : ∀ a, (![0, 0] : Fin 2 → Nat) a + S512x128.size a ≤ S512x128.size a
  h_S512x128 : 0 < S512x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S512x256_S512 : S512x256.Reduces [1] S512
  shapeCasts_S512_S512x1 : S512.ShapeCasts S512x1
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  reduces_S256x256_S256 : S256x256.Reduces [1] S256
  shapeCasts_S256_S256x1 : S256.ShapeCasts S256x1
  broadcasts_S256x1_S256x128 : S256x1.Broadcasts S256x128
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .bf16 = 32 ∨ (Rect.block (s := S4096x256) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .bf16 = 32 ∨ (Rect.block (s := S4096x256) S256x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S4096x128.size a
  hwx2_4 : ∀ i : grid2.Coords, EltTy.bits .f32 = 32 ∨ (Rect.block (s := S4096x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S4096x128.size a
  hwx2_5 : ∀ i : grid2.Coords, EltTy.bits .f32 = 32 ∨ (Rect.block (s := S4096x128) S256x128.size (cc2_transform_5 i) (hinb2_5 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v14_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v14_1) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14_0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v13) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v15) S256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v15) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v3) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v14_1) S256x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v16) S256x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S4096x128 : Shape := ⟨2, ![4096, 128]⟩
abbrev S128x256 : Shape := ⟨2, ![128, 256]⟩
abbrev S1x256 : Shape := ⟨2, ![1, 256]⟩
abbrev S256x256 : Shape := ⟨2, ![256, 256]⟩
abbrev S4096x256 : Shape := ⟨2, ![4096, 256]⟩
abbrev S64x512 : Shape := ⟨2, ![64, 512]⟩
abbrev S_ : Shape := ⟨0, ![]⟩
abbrev S256x128 : Shape := ⟨2, ![256, 128]⟩
abbrev S64x256 : Shape := ⟨2, ![64, 256]⟩
abbrev S256x64 : Shape := ⟨2, ![256, 64]⟩
abbrev S1 : Shape := ⟨1, ![1]⟩
abbrev S1x128 : Shape := ⟨2, ![1, 128]⟩
abbrev S64 : Shape := ⟨1, ![64]⟩
abbrev S2 : Shape := ⟨1, ![2]⟩
abbrev S4096x64 : Shape := ⟨2, ![4096, 64]⟩
abbrev S512x4096 : Shape := ⟨2, ![512, 4096]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 36
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x256, .f32⟩
  | .hbm, ⟨3, _⟩ => ⟨S1x256, .f32⟩
  | .hbm, ⟨4, _⟩ => ⟨S256x256, .f32⟩
  | .hbm, ⟨5, _⟩ => ⟨S1x256, .f32⟩
  | .hbm, ⟨6, _⟩ => ⟨S4096x256, .f32⟩
  | .hbm, ⟨7, _⟩ => ⟨S64x512, .f32⟩
  | .hbm, ⟨8, _⟩ => ⟨S4096x256, .f32⟩
  | .hbm, ⟨9, _⟩ => ⟨S_, .f32⟩
  | .hbm, ⟨10, _⟩ => ⟨S256x128, .f32⟩
  | .hbm, ⟨11, _⟩ => ⟨S64x256, .f32⟩
  | .hbm, ⟨12, _⟩ => ⟨S256x64, .f32⟩
  | .hbm, ⟨13, _⟩ => ⟨S_, .i32⟩
  | .hbm, ⟨14, _⟩ => ⟨S1, .i32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S64x256, .f32⟩
  | .hbm, ⟨19, _⟩ => ⟨S256x64, .f32⟩
  | .hbm, ⟨20, _⟩ => ⟨S_, .i32⟩
  | .hbm, ⟨21, _⟩ => ⟨S1, .i32⟩
  | .hbm, ⟨22, _⟩ => ⟨S256x128, .f32⟩
  | .hbm, ⟨23, _⟩ => ⟨S_, .f32⟩
  | .hbm, ⟨24, _⟩ => ⟨S1x128, .f32⟩
  | .hbm, ⟨25, _⟩ => ⟨S64x512, .f32⟩
  | .hbm, ⟨26, _⟩ => ⟨S_, .f32⟩
  | .hbm, ⟨27, _⟩ => ⟨S64, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S4096x128, .f32⟩
  | .hbm, ⟨35, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S128x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S512x4096, .f32⟩
  | .local _ .vmem, ⟨8, _⟩ => ⟨S512x4096, .f32⟩
  | .local _ .vmem, ⟨9, _⟩ => ⟨S4096x256, .f32⟩
  | .local _ .vmem, ⟨10, _⟩ => ⟨S256x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_c : Ref sig .tc := ⟨.hbm, 13, rfl⟩
abbrev main_call0_v4 : Ref sig .tc := ⟨.hbm, 14, rfl⟩
abbrev main_call0_v5 : Ref sig .tc := ⟨.hbm, 15, rfl⟩
abbrev main_call0_cst_0 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c_1 : Ref sig .tc := ⟨.hbm, 20, rfl⟩
abbrev main_call0_v9 : Ref sig .tc := ⟨.hbm, 21, rfl⟩
abbrev main_call0_v10 : Ref sig .tc := ⟨.hbm, 22, rfl⟩
abbrev main_call0_cst_2 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_call0_c_5 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S256x128 : S_.BroadcastsInDim S256x128 (![] : Fin 0 → Fin S256x128.rank)
  slices_S64x512_S64x256_0_0 : S64x512.Slices ![0, 0] S64x256
  transposes_S64x256_S256x64_1_0 : S64x256.Transposes [1, 0] S256x64
  bcast_S_S1 : S_.BroadcastsInDim S1 (![] : Fin 0 → Fin S1.rank)
  slices_S64x512_S64x256_0_256 : S64x512.Slices ![0, 256] S64x256
  bcast_S_S1x128 : S_.BroadcastsInDim S1x128 (![] : Fin 0 → Fin S1x128.rank)
  reducesTo_S64x512_S64_d1 : S64x512.ReducesTo [1] S64
  h_S_ : 0 < S_.numel
  concatenates_S1_S1_S2_d0 : Shape.Concatenates [S1, S1] S2 0
  slices_S4096x128_S4096x64_0_0 : S4096x128.Slices ![0, 0] S4096x64
  inb_S4096x128_S4096x128_0_0 : ∀ a, (![0, 0] : Fin 2 → Nat) a + S4096x128.size a ≤ S4096x128.size a
  h_S4096x128 : 0 < S4096x128.numel
  inb_S128x256_S128x256_0_0 : ∀ a, (![0, 0] : Fin 2 → Nat) a + S128x256.size a ≤ S128x256.size a
  h_S128x256 : 0 < S128x256.numel
  inb_S512x4096_S512x4096_0_0 : ∀ a, (![0, 0] : Fin 2 → Nat) a + S512x4096.size a ≤ S512x4096.size a
  h_S512x4096 : 0 < S512x4096.numel
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S512x256_S512 : S512x256.Reduces [1] S512
  shapeCasts_S512_S512x1 : S512.ShapeCasts S512x1
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  scatter_S256x128_S1_S256x64_01_n_1_0_wf : ScatterDims.WF S256x128 S1 S256x64 [0, 1] [] [1] 0
  scatter_S1x128_S2_S64_0_0_01_0_wf : ScatterDims.WF S1x128 S2 S64 [0] [0] [0, 1] 0
  dot_S4096x128_S128x256_S4096x256_1_0_0_1_n_n_wf : DotDims.WF S4096x128 S128x256 S4096x256 [1] [0] [0] [1] [] []
  dot_S512x4096_S4096x256_S512x256_1_0_0_1_n_n_wf : DotDims.WF S512x4096 S4096x256 S512x256 [1] [0] [0] [1] [] []
  dot_S4096x256_S256x256_S4096x256_1_0_0_1_n_n_wf : DotDims.WF S4096x256 S256x256 S4096x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S4096x128.size a
  hwx1_8 : ∀ i : grid1.Coords, EltTy.bits .f32 = 32 ∨ (Rect.block (s := S4096x128) S512x128.size (cc1_transform_8 i) (hinb1_8 i)).WholeWords (EltTy.packing .f32)

variable [Facts₀]

def scatter_S256x128_S1_S256x64_01_n_1_0 : ScatterDims S256x128 S1 S256x64 where
  updateWindowDims := [0, 1]
  insertedWindowDims := []
  scatterDimsToOperandDims := [1]
  indexVectorDim := 0
  wf := scatter_S256x128_S1_S256x64_01_n_1_0_wf
def scatter_S1x128_S2_S64_0_0_01_0 : ScatterDims S1x128 S2 S64 where
  updateWindowDims := [0]
  insertedWindowDims := [0]
  scatterDimsToOperandDims := [0, 1]
  indexVectorDim := 0
  wf := scatter_S1x128_S2_S64_0_0_01_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S512x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v5) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v10) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v17) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v18) S512x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== Proof.Spec.lean ====
/-
  The mathematics both programs compute, stated once over whole arrays of extended reals.

  An array of shape [m, n] is a function of its index. A matrix product is the sum over the contraction index of
  the products of the entries; a bias row is added to every row; the rectifier is the maximum with zero; the squared
  norm of a row is the sum of the squares of its entries.

  The classifier head is written in the two groupings the two programs use. With
      cross_h = (H2 · PH)[n, c],   cross_e = (E · PE)[n, c],   |H2_n|², |E_n|²,   pn_c,
  one program computes   (2·cross_h − |H2_n|²) + ((2·cross_e − |E_n|²) − pn_c)      (`headK` over `embTerm`)
  and the other           (2·(cross_h + cross_e) − (|H2_n|² + |E_n|²)) − pn_c         (`headR`).
-/
import Idealize.ShloMosaic.PureOps.Ideal.Laws
import Idealize.ShloMosaic.Lib.ValueIdx

noncomputable section

open scoped BigOperators

namespace Cert.Spec

open Idealize.ShloMosaic Idealize.ShloMosaic.ValueIdx

/-- An [m, n] array of extended reals. -/
abbrev Arr (m n : Nat) := (⟨2, ![m, n]⟩ : Shape).Idx → EReal

/-- The row coordinate of an index, at its literal extent. -/
abbrev row {m n : Nat} (i : (⟨2, ![m, n]⟩ : Shape).Idx) : Fin m := ⟨(i 0).val, idx2_lt0 i⟩
/-- The column coordinate of an index, at its literal extent. -/
abbrev col {m n : Nat} (i : (⟨2, ![m, n]⟩ : Shape).Idx) : Fin n := ⟨(i 1).val, idx2_lt1 i⟩

/-- The matrix product: entry (p, j) is the sum over k of A[p, k] · B[k, j]. -/
def mm {M K N : Nat} (A : Arr M K) (B : Arr K N) : Arr M N :=
  fun i => ∑ k : Fin K, A (ix2 (row i) k) * B (ix2 k (col i))

theorem mm_apply {M K N : Nat} (A : Arr M K) (B : Arr K N) (p : Fin M) (j : Fin N) :
    mm A B (ix2 p j) = ∑ k : Fin K, A (ix2 p k) * B (ix2 k j) := rfl

/-- A bias row added to every row. -/
def addRow {M N : Nat} (X : Arr M N) (b : Arr 1 N) : Arr M N :=
  fun i => X i + b (ix2 0 (col i))

theorem addRow_apply {M N : Nat} (X : Arr M N) (b : Arr 1 N) (p : Fin M) (j : Fin N) :
    addRow X b (ix2 p j) = X (ix2 p j) + b (ix2 0 j) := rfl

/-- The rectifier, entry by entry. -/
def relu {M N : Nat} (X : Arr M N) : Arr M N := fun i => max (X i) 0

theorem relu_apply {M N : Nat} (X : Arr M N) (i : (⟨2, ![M, N]⟩ : Shape).Idx) : relu X i = max (X i) 0 := rfl

/-- The squared norm of row p. -/
def rowSq {M K : Nat} (X : Arr M K) (p : Fin M) : EReal := ∑ k : Fin K, X (ix2 p k) * X (ix2 p k)

/-- The factor two, as the kernels' literal denotes it. -/
def two : EReal := Ideal.ofBits .f32 0x40000000#32

/-- The part of the head that does not depend on the hidden layer: 2·(E · PE)[n, c] − |E_n|² − pn_c. -/
def embTerm {M H C : Nat} (E : Arr M H) (PE : Arr H C) (PN : Arr 1 C) : Arr M C :=
  fun i => (two * mm E PE i - rowSq E (row i)) - PN (ix2 0 (col i))

theorem embTerm_apply {M H C : Nat} (E : Arr M H) (PE : Arr H C) (PN : Arr 1 C) (n : Fin M) (c : Fin C) :
    embTerm E PE PN (ix2 n c) = (two * mm E PE (ix2 n c) - rowSq E n) - PN (ix2 0 c) := rfl

/-- The head with the embedding part already folded into `Kt`: 2·(H2 · PH)[n, c] − |H2_n|² + Kt[n, c]. -/
def headK {M H C : Nat} (H2 : Arr M H) (PH : Arr H C) (Kt : Arr M C) : Arr M C :=
  fun i => (two * mm H2 PH i - rowSq H2 (row i)) + Kt i

theorem headK_apply {M H C : Nat} (H2 : Arr M H) (PH : Arr H C) (Kt : Arr M C) (n : Fin M) (c : Fin C) :
    headK H2 PH Kt (ix2 n c) = (two * mm H2 PH (ix2 n c) - rowSq H2 n) + Kt (ix2 n c) := rfl

/-- The head with both halves side by side: 2·((H2 · PH)[n, c] + (E · PE)[n, c]) − (|H2_n|² + |E_n|²) − pn_c. -/
def headR {M H C : Nat} (H2 E : Arr M H) (PH PE : Arr H C) (PN : Arr 1 C) : Arr M C :=
  fun i => (two * (mm H2 PH i + mm E PE i) - (rowSq H2 (row i) + rowSq E (row i))) - PN (ix2 0 (col i))

theorem headR_apply {M H C : Nat} (H2 E : Arr M H) (PH PE : Arr H C) (PN : Arr 1 C) (n : Fin M) (c : Fin C) :
    headR H2 E PH PE PN (ix2 n c)
      = (two * (mm H2 PH (ix2 n c) + mm E PE (ix2 n c)) - (rowSq H2 n + rowSq E n)) - PN (ix2 0 c) := rfl

/-- The squared norm of prototype c. -/
def pnorm {C D : Nat} (P : Arr C D) (c : Fin C) : EReal := ∑ j : Fin D, P (ix2 c j) * P (ix2 c j)

end Cert.Spec

end
-- ==== Proof.SpecAlg.lean ====
/-
  Where every entry is a real number the two groupings of the classifier head agree.

  On the extended reals a difference does not regroup at the infinities, so the law
      (2·a − b) + ((2·c − d) − p) = (2·(a + c) − (b + d)) − p
  is proved for real a, b, c, d, p. The real numbers among the extended reals are closed under sums, products,
  differences, the maximum with zero and finite sums; hence products of real matrices, biased and rectified, are
  real, and so are the squared norms of their rows.
-/
import proofs.«149869_g2000004181024809_pallasbulk_469_2_alg».proof.Proof.Spec

noncomputable section

open scoped BigOperators

namespace Cert.Spec

open Idealize.ShloMosaic Idealize.ShloMosaic.ValueIdx

/-- An extended real that is a real number: neither infinity. -/
def IsR (x : EReal) : Prop := x ≠ ⊥ ∧ x ≠ ⊤

theorem IsR.coe (r : ℝ) : IsR (r : EReal) := ⟨EReal.coe_ne_bot r, EReal.coe_ne_top r⟩

theorem isR_iff {x : EReal} : IsR x ↔ ∃ r : ℝ, x = (r : EReal) := by
  constructor
  · rintro ⟨hb, ht⟩
    lift x to ℝ using ⟨ht, hb⟩
    exact ⟨x, rfl⟩
  · rintro ⟨r, rfl⟩
    exact IsR.coe r

theorem isR_zero : IsR (0 : EReal) := by
  have := IsR.coe 0
  rwa [EReal.coe_zero] at this

theorem IsR.add {x y : EReal} (hx : IsR x) (hy : IsR y) : IsR (x + y) := by
  obtain ⟨r, rfl⟩ := isR_iff.mp hx
  obtain ⟨s, rfl⟩ := isR_iff.mp hy
  rw [← EReal.coe_add]
  exact IsR.coe _

theorem IsR.mul {x y : EReal} (hx : IsR x) (hy : IsR y) : IsR (x * y) := by
  obtain ⟨r, rfl⟩ := isR_iff.mp hx
  obtain ⟨s, rfl⟩ := isR_iff.mp hy
  rw [← EReal.coe_mul]
  exact IsR.coe _

theorem IsR.sub {x y : EReal} (hx : IsR x) (hy : IsR y) : IsR (x - y) := by
  obtain ⟨r, rfl⟩ := isR_iff.mp hx
  obtain ⟨s, rfl⟩ := isR_iff.mp hy
  rw [← EReal.coe_sub]
  exact IsR.coe _

theorem IsR.max_zero {x : EReal} (hx : IsR x) : IsR (max x 0) := by
  rcases le_total x 0 with h | h
  · rw [max_eq_right h]; exact isR_zero
  · rw [max_eq_left h]; exact hx

theorem IsR.sum {ι : Type} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- The literal two is a real number. -/
theorem isR_two : IsR two := by
  unfold two Ideal.ofBits Ideal.ieee
  simp
  exact IsR.coe _

/-- Every entry a real number. -/
def AllR {M N : Nat} (X : Arr M N) : Prop := ∀ i, IsR (X i)

/-- An entry of a product is real when the row of the left factor and the column of the right factor are. -/
theorem isR_mm {M K N : Nat} (A : Arr M K) (B : Arr K N) (p : Fin M) (j : Fin N)
    (hA : ∀ k, IsR (A (ix2 p k))) (hB : ∀ k, IsR (B (ix2 k j))) : IsR (mm A B (ix2 p j)) := by
  rw [mm_apply]
  exact IsR.sum _ _ fun k _ => (hA k).mul (hB k)

theorem AllR.mm {M K N : Nat} {A : Arr M K} {B : Arr K N} (hA : AllR A) (hB : AllR B) : AllR (mm A B) := by
  intro i
  obtain ⟨p, j, rfl⟩ : ∃ (p : Fin M) (j : Fin N), i = ix2 p j := ⟨row i, col i, eq_ix2 i⟩
  exact isR_mm A B p j (fun k => hA _) (fun k => hB _)

theorem AllR.addRow {M N : Nat} {X : Arr M N} {b : Arr 1 N} (hX : AllR X) (hb : AllR b) : AllR (addRow X b) :=
  fun i => (hX i).add (hb _)

theorem AllR.relu {M N : Nat} {X : Arr M N} (hX : AllR X) : AllR (relu X) := fun i => (hX i).max_zero

theorem isR_rowSq {M K : Nat} {X : Arr M K} (hX : AllR X) (p : Fin M) : IsR (rowSq X p) :=
  IsR.sum _ _ fun k _ => (hX _).mul (hX _)

theorem isR_pnorm {C D : Nat} {P : Arr C D} (hP : AllR P) (c : Fin C) : IsR (pnorm P c) :=
  IsR.sum _ _ fun j _ => (hP _).mul (hP _)

/-- The second graph-convolution layer both programs compute: A · (relu(A · (X · W0) + b0) · W1) + b1. -/
def hidden2 {N F H : Nat} (A : Arr N N) (X : Arr N F) (W0 : Arr F H) (b0 : Arr 1 H) (W1 : Arr H H) (b1 : Arr 1 H) : Arr N H :=
  addRow (mm A (mm (relu (addRow (mm A (mm X W0)) b0)) W1)) b1

theorem AllR.hidden2 {N F H : Nat} {A : Arr N N} {X : Arr N F} {W0 : Arr F H} {b0 : Arr 1 H} {W1 : Arr H H} {b1 : Arr 1 H}
    (hA : AllR A) (hX : AllR X) (hW0 : AllR W0) (hb0 : AllR b0) (hW1 : AllR W1) (hb1 : AllR b1) :
    AllR (hidden2 A X W0 b0 W1 b1) :=
  ((hA.mm (((hA.mm (hX.mm hW0)).addRow hb0).relu.mm hW1))).addRow hb1

/-- The law over the reals, carried to real-valued extended reals. -/
theorem regroup {t a b c d p : EReal} (ht : IsR t) (ha : IsR a) (hb : IsR b) (hc : IsR c) (hd : IsR d) (hp : IsR p) :
    (t * a - b) + ((t * c - d) - p) = (t * (a + c) - (b + d)) - p := by
  obtain ⟨t, rfl⟩ := isR_iff.mp ht
  obtain ⟨a, rfl⟩ := isR_iff.mp ha
  obtain ⟨b, rfl⟩ := isR_iff.mp hb
  obtain ⟨c, rfl⟩ := isR_iff.mp hc
  obtain ⟨d, rfl⟩ := isR_iff.mp hd
  obtain ⟨p, rfl⟩ := isR_iff.mp hp
  simp only [← EReal.coe_mul, ← EReal.coe_sub, ← EReal.coe_add]
  congr 1
  ring

/-- THE TWO HEADS AGREE at row n and column c: when the two programs' prototype halves and norms agree on column c, and
    the second layer, the embedding, and column c of the prototype arrays are real. -/
theorem head_eq {M H C : Nat} (H2 E : Arr M H) (PHk PEk PHr PEr : Arr H C) (PNk PNr : Arr 1 C) (n : Fin M) (c : Fin C)
    (hPH : ∀ h, PHk (ix2 h c) = PHr (ix2 h c)) (hPE : ∀ h, PEk (ix2 h c) = PEr (ix2 h c))
    (hPN : PNk (ix2 0 c) = PNr (ix2 0 c))
    (fH2 : AllR H2) (fE : AllR E) (fPH : ∀ h, IsR (PHr (ix2 h c))) (fPE : ∀ h, IsR (PEr (ix2 h c)))
    (fPN : IsR (PNr (ix2 0 c))) :
    headK H2 PHk (embTerm E PEk PNk) (ix2 n c) = headR H2 E PHr PEr PNr (ix2 n c) := by
  have eH : mm H2 PHk (ix2 n c) = mm H2 PHr (ix2 n c) := by
    rw [mm_apply, mm_apply]; exact Finset.sum_congr rfl fun k _ => by rw [hPH k]
  have eE : mm E PEk (ix2 n c) = mm E PEr (ix2 n c) := by
    rw [mm_apply, mm_apply]; exact Finset.sum_congr rfl fun k _ => by rw [hPE k]
  rw [headK_apply, embTerm_apply, headR_apply, eH, eE, hPN]
  exact regroup isR_two (isR_mm H2 PHr n c (fun k => fH2 _) fPH) (isR_rowSq fH2 n)
    (isR_mm E PEr n c (fun k => fE _) fPE) (isR_rowSq fE n) fPN

end Cert.Spec

end
-- ==== Proof.Finite.lean ====
import proofs.«149869_g2000004181024809_pallasbulk_469_2_alg».proof.Defs
import proofs.«149869_g2000004181024809_pallasbulk_469_2_alg».proof.Proof.Gen.Pre_finite_inputs
import proofs.«149869_g2000004181024809_pallasbulk_469_2_alg».proof.Proof.Spec
import Idealize.ShloMosaic.Lib.ReduceAll
import Idealize.ShloMosaic.Lib.ValueIdx

noncomputable section

open Idealize.ShloMosaic Idealize.SL.Sem
open Idealize.ShloMosaic.ValueIdx

namespace Cert.FiniteInputs
open Cert.Spec

/-- An extended real that is a real number. -/
def IsReal (x : EReal) : Prop := x ≠ ⊥ ∧ x ≠ ⊤

/-- The word with all exponent bits set and no fraction bit denotes +∞. -/
theorem inf_word : Ideal.ofBits .f32 0x7F800000#32 = (⊤ : EReal) := by
  simp [Ideal.ofBits, Ideal.ieee]

/-- |x| = max x (−x) is below +∞ only when x is neither infinity: −(−∞) = +∞, so both infinities have |x| = +∞. -/
theorem isReal_of_abs_lt_top (x : EReal) (h : max x (-x) < ⊤) : IsReal x := by
  induction x using EReal.rec with
  | bot => simp at h
  | top => simp at h
  | coe r => exact ⟨EReal.coe_ne_bot r, EReal.coe_ne_top r⟩

/-- The comparison |x| < +∞ answering 1 says x is a real number. -/
theorem isReal_of_cmp (x : EReal)
    (h : Ideal.cmp .olt (max x (-x)) (Ideal.ofBits .f32 0x7F800000#32) = 1#1) : IsReal x := by
  rw [inf_word] at h
  apply isReal_of_abs_lt_top
  by_contra hn
  simp [Ideal.cmp, hn] at h

/-- The rank-0 shape has exactly one index. -/
instance : Subsingleton (⟨0, ![]⟩ : Shape).Idx := ⟨fun a b => funext fun d => d.elim0⟩

/-- One conjunct of the precondition: if the conjunction over all entries of an [m, n] array of the tests
    |x| < +∞ is 1, every entry is a real number. -/
theorem isReal_of_all {m n : Nat} (x : Arr m n)
    (hb : (⟨0, ![]⟩ : Shape).BroadcastsInDim ⟨2, ![m, n]⟩ (![] : Fin 0 → Fin 2))
    (hr : (⟨2, ![m, n]⟩ : Shape).ReducesTo [0, 1] ⟨0, ![]⟩) (hu : 0 < (⟨0, ![]⟩ : Shape).numel)
    (e : Host.reduce IntOp.andi
          (cmpf (F := Ideal) .olt (Host.absf (F := Ideal) (φ := .f32) x)
            (broadcastInDim ⟨2, ![m, n]⟩ ![] hb (constant (F := Ideal) ⟨0, ![]⟩ .f32 0x7F800000#32)))
          (constantI ⟨0, ![]⟩ 1 1#1) hr hu ix0 = 1#1) :
    ∀ i, IsReal (x i) := fun i =>
  isReal_of_cmp (x i) (Host.reduce_andi_all _ _ hr hu ix0 e i)

/-- Under the precondition every entry of every argument array is a real number. -/
theorem of_pre [hP : Cert.Pre_finite_inputs.Facts]
    (a0 : Arr 4096 4096) (a1 : Arr 4096 128) (a2 : Arr 128 256) (a3 : Arr 1 256) (a4 : Arr 256 256) (a5 : Arr 1 256)
    (a6 : Arr 4096 256) (a7 : Arr 64 512)
    (h : Cert.Pre_finite_inputs.fn (F := Ideal) a0 a1 a2 a3 a4 a5 a6 a7 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  -- the precondition at its one index: a conjunction of eight reductions, nested to the left
  have h0 := congrFun h ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨e0, e1⟩, e2⟩, e3⟩, e4⟩, e5⟩, e6⟩, e7⟩ := h0
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6, isReal_of_all a7 _ _ _ e7⟩

end Cert.FiniteInputs

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.KReg0.lean ====
import proofs.«149869_g2000004181024809_pallasbulk_469_2_alg».proof.Proof.Gen.KernelIdeal.Frame
import proofs.«149869_g2000004181024809_pallasbulk_469_2_alg».proof.Proof.Spec
import proofs.«149869_g2000004181024809_pallasbulk_469_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg0
open Cert.KernelIdeal Cert.KernelIdeal.Gen Cert.Spec

/-! ## Row blocks of the specification's functions

A row block of an array `A` is an array `X` with `X[p, k] = A[f p, k]` for a map `f` of row numbers. The matrix
product, the squared row norm and the embedding part of the head are computed row by row, so each of them, taken of
a row block, is the row block of the whole. -/

/-- The product of a row block of `A` with `B` is the row block of `A · B`. -/
theorem mm_rowBlock {M K N R : Nat} (A : Arr M K) (B : Arr K N) (X : Arr R K) (W : Arr K N) (f : Fin R → Fin M)
    (hX : ∀ p k, X (ix2 p k) = A (ix2 (f p) k)) (hW : W = B) (p : Fin R) (q : Fin N) :
    mm X W (ix2 p q) = mm A B (ix2 (f p) q) := by
  subst hW
  rw [mm_apply, mm_apply]
  exact Finset.sum_congr rfl fun k _ => by rw [hX]

/-- The squared norm of row `p` of a row block is that of row `f p` of the whole. -/
theorem rowSq_rowBlock {M K R : Nat} (A : Arr M K) (X : Arr R K) (f : Fin R → Fin M)
    (hX : ∀ p k, X (ix2 p k) = A (ix2 (f p) k)) (p : Fin R) : rowSq X p = rowSq A (f p) := by
  unfold rowSq
  exact Finset.sum_congr rfl fun k _ => by rw [hX]

/-- The embedding part of the head, taken of a row block of `E`, is the row block of the whole. -/
theorem embTerm_rowBlock {M H C R : Nat} (E : Arr M H) (PE : Arr H C) (PN : Arr 1 C) (X : Arr R H) (W : Arr H C)
    (b : Arr 1 C) (f : Fin R → Fin M) (hX : ∀ p k, X (ix2 p k) = E (ix2 (f p) k)) (hW : W = PE) (hb : b = PN)
    (p : Fin R) (q : Fin C) : embTerm X W b (ix2 p q) = embTerm E PE PN (ix2 (f p) q) := by
  subst hW hb
  rw [embTerm_apply, embTerm_apply, mm_rowBlock E W X W f hX rfl, rowSq_rowBlock E X f hX]

/-! ## Two layout operations read at an index: a column kept by a reduction -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's two results as the specification's functions of the loaded blocks -/

theorem hz : (![0, 0] : Fin 2 → Nat) = fun _ => 0 := funext fun a => by fin_cases a <;> rfl

/-- The first result's staging buffer after the body is its one stored value. -/
theorem out5_eq (x0 : Vec Ideal S512x128 .f32) (x1 : Vec Ideal S128x256 .bf16) (x2 : Vec Ideal S512x256 .f32)
    (x3 : Vec Ideal S256x128 .bf16) (x4 : Vec Ideal S1x128 .f32) :
    out0_5 (F := Ideal) x0 x1 x2 x3 x4 = k0_pay1 x0 x1 := by
  unfold out0_5
  rw [View.canon_unit_zero hz]
  simp only [View.ld_unit_zero (S := S512x128) hz, View.ld_unit_zero (S := S128x256) hz]

/-- The second result's staging buffer after the body is its one stored value. -/
theorem out6_eq (x0 : Vec Ideal S512x128 .f32) (x1 : Vec Ideal S128x256 .bf16) (x2 : Vec Ideal S512x256 .f32)
    (x3 : Vec Ideal S256x128 .bf16) (x4 : Vec Ideal S1x128 .f32) :
    out0_6 (F := Ideal) x0 x1 x2 x3 x4 = k0_pay2 x2 x3 x4 := by
  unfold out0_6
  rw [View.canon_unit_zero hz]
  simp only [View.ld_unit_zero (S := S512x256) hz, View.ld_unit_zero (S := S256x128) hz, View.ld_unit_zero (S := S1x128) hz]

/-- The two printed products contract the left operand's columns with the right operand's rows. -/
theorem dotX_plain : dot_S512x128_S128x256_S512x256_1_0_0_1_n_n = DotDims.plain 512 128 256 := rfl
theorem dotE_plain : dot_S512x256_S256x128_S512x128_1_0_0_1_n_n = DotDims.plain 512 256 128 := rfl

/-- The first stored value: the product of the two loaded blocks (a format change is the identity on extended reals). -/
theorem pay1_eq (x0 : FVec Ideal S512x128 .f32) (x1 : FVec Ideal S128x256 .bf16) :
    (k0_pay1 (F := Ideal) x0 x1 : Arr 512 256) = mm (x0 : Arr 512 128) (x1 : Arr 128 256) := by
  funext j
  obtain ⟨p, q, rfl⟩ : ∃ (p : Fin 512) (q : Fin 256), j = ix2 p q := ⟨j 0, j 1, eq_ix2 j⟩
  unfold k0_pay1
  rw [shapeCast_self, dotX_plain]
  exact PlainDot.matmul_zero_apply 512 128 256 none _ _ p q

/-- The sum along the lanes of a [512, 256] block, read at row `r`. -/
theorem laneSum_apply (src : FVec Ideal S512x256 .f32) (h : S512x256.Reduces [1] S512) (hφ : FKind.Formats .f32)
    (hacc : (0x00000000#32 : BitVec 32) = 0x00000000#32) (r : Fin 512) :
    multiReduction (F := Ideal) .add [1] S512 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

/-- The second stored value: twice the product of the loaded blocks, less each row's squared norm, less the bias row. -/
theorem pay2_eq (x2 : FVec Ideal S512x256 .f32) (x3 : FVec Ideal S256x128 .bf16) (x4 : FVec Ideal S1x128 .f32) :
    (k0_pay2 (F := Ideal) x2 x3 x4 : Arr 512 128) = embTerm (x2 : Arr 512 256) (x3 : Arr 256 128) (x4 : Arr 1 128) := by
  funext j
  obtain ⟨p, q, rfl⟩ : ∃ (p : Fin 512) (q : Fin 128), j = ix2 p q := ⟨j 0, j 1, eq_ix2 j⟩
  have h1 : matmul (F := Ideal) dot_S512x256_S256x128_S512x128_1_0_0_1_n_n none (truncf .bf16 x2 bitsLt_bf16_f32)
      (shapeCast S256x128 x3 shapeCasts_S256x128_S256x128) (constant S512x128 .f32 0x00000000#32) (ix2 p q)
        = mm (x2 : Arr 512 256) (x3 : Arr 256 128) (ix2 p q) := by
    rw [shapeCast_self, dotE_plain]
    exact PlainDot.matmul_zero_apply 512 256 128 none _ _ p q
  have h2 : broadcastTo S512x128 (shapeCast S512x1 (multiReduction (F := Ideal) .add [1] S512 (mulf x2 x2) 0x00000000#32
      reduces_S512x256_S512 (.inl rfl) rfl) shapeCasts_S512_S512x1) broadcasts_S512x1_S512x128 (ix2 p q)
        = rowSq (x2 : Arr 512 256) p :=
    (broadcastTo_a1_ab_apply _ _ p q).trans ((shapeCast_a_a1_apply _ _ p 0).trans (laneSum_apply _ _ _ _ p))
  have h3 : broadcastTo S512x128 (shapeCast S1x128 x4 shapeCasts_S1x128_S1x128) broadcasts_S1x128_S512x128 (ix2 p q)
        = (x4 : Arr 1 128) (ix2 0 q) := by
    rw [shapeCast_self]
    exact broadcastTo_1b_ab_apply _ _ p q
  unfold k0_pay2
  exact congrArg₂ (· - ·) (congrArg₂ (· - ·) (congrArg (two * ·) h1) h2) h3

/-! ## Each loaded block read off its array -/

variable (V : (c : Dev nD) → (b : Ref sig .tc) → Buf (Elt Ideal) ((c : Thread nD τ).loc b))

/-- The printed index maps, decided over the grid's eight points: a row-tiled window follows the point along the rows,
    a resident window stays at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem lt8 (t : Fin cfg0.N) : t.val < 8 := by have h := t.isLt; have h8 : cfg0.N = 8 := N_0; omega

/-- Row `512 t + p` of a 4096-row array: row `p` of the block of point `t`. -/
abbrev rowAt (t : Fin cfg0.N) (p : Fin 512) : Fin 4096 := ⟨512 * t.val + p.val, by have := lt8 t; omega⟩

/-- The first window's block at point `t` is rows `512 t … 512 t + 511` of its array. -/
theorem iblk_0 (c : Dev nD) (t : Fin cfg0.N) (p : Fin 512) (k : Fin 128) :
    (iblk0 (F := Ideal) V c 0 t : FVec Ideal S512x128 .f32) (ix2 p k) = (V c main_arg1 : Arr 4096 128) (ix2 (rowAt t p) k) := by
  obtain ⟨⟨e0, e1⟩, -⟩ := idx_facts t
  unfold iblk0
  rw [View.read_apply]
  show V c main_arg1 (((cfg0.win 0).blk t).view.emb (ix2 p k)) = V c main_arg1 (ix2 (rowAt t p) k)
  congr 1
  funext a
  apply Fin.ext
  match a with
  | ⟨0, _⟩ => show win0_0.index t (0 : Fin 2) * 512 + 1 * p.val = 512 * t.val + p.val; omega
  | ⟨1, _⟩ => show win0_0.index t (1 : Fin 2) * 128 + 1 * k.val = k.val; omega

/-- The second window's block is its whole array at every point. -/
theorem iblk_1 (c : Dev nD) (t : Fin cfg0.N) :
    (iblk0 (F := Ideal) V c 1 t : FVec Ideal S128x256 .bf16) = (V c main_call0_v12 : Arr 128 256) := by
  obtain ⟨-, ⟨e0, e1⟩, -⟩ := idx_facts t
  funext j
  unfold iblk0
  rw [View.read_apply]
  show V c main_call0_v12 (((cfg0.win 1).blk t).view.emb j) = V c main_call0_v12 j
  congr 1
  funext a
  apply Fin.ext
  match a with
  | ⟨0, _⟩ => show win0_1.index t (0 : Fin 2) * 128 + 1 * (j 0).val = (j 0).val; omega
  | ⟨1, _⟩ => show win0_1.index t (1 : Fin 2) * 256 + 1 * (j 1).val = (j 1).val; omega

/-- The third window's block at point `t` is rows `512 t … 512 t + 511` of its array. -/
theorem iblk_2 (c : Dev nD) (t : Fin cfg0.N) (p : Fin 512) (k : Fin 256) :
    (iblk0 (F := Ideal) V c 2 t : FVec Ideal S512x256 .f32) (ix2 p k) = (V c main_arg6 : Arr 4096 256) (ix2 (rowAt t p) k) := by
  obtain ⟨-, -, ⟨e0, e1⟩, -⟩ := idx_facts t
  unfold iblk0
  rw [View.read_apply]
  show V c main_arg6 (((cfg0.win 2).blk t).view.emb (ix2 p k)) = V c main_arg6 (ix2 (rowAt t p) k)
  congr 1
  funext a
  apply Fin.ext
  match a with
  | ⟨0, _⟩ => show win0_2.index t (0 : Fin 2) * 512 + 1 * p.val = 512 * t.val + p.val; omega
  | ⟨1, _⟩ => show win0_2.index t (1 : Fin 2) * 256 + 1 * k.val = k.val; omega

/-- The fourth window's block is its whole array at every point. -/
theorem iblk_3 (c : Dev nD) (t : Fin cfg0.N) :
    (iblk0 (F := Ideal) V c 3 t : FVec Ideal S256x128 .bf16) = (V c main_call0_v7 : Arr 256 128) := by
  obtain ⟨-, -, -, ⟨e0, e1⟩, -⟩ := idx_facts t
  funext j
  unfold iblk0
  rw [View.read_apply]
  show V c main_call0_v7 (((cfg0.win 3).blk t).view.emb j) = V c main_call0_v7 j
  congr 1
  funext a
  apply Fin.ext
  match a with
  | ⟨0, _⟩ => show win0_3.index t (0 : Fin 2) * 256 + 1 * (j 0).val = (j 0).val; omega
  | ⟨1, _⟩ => show win0_3.index t (1 : Fin 2) * 128 + 1 * (j 1).val = (j 1).val; omega

/-- The fifth window's block is its whole array at every point. -/
theorem iblk_4 (c : Dev nD) (t : Fin cfg0.N) :
    (iblk0 (F := Ideal) V c 4 t : FVec Ideal S1x128 .f32) = (V c main_call0_v11 : Arr 1 128) := by
  obtain ⟨-, -, -, -, ⟨e0, e1⟩, -⟩ := idx_facts t
  funext j
  unfold iblk0
  rw [View.read_apply]
  show V c main_call0_v11 (((cfg0.win 4).blk t).view.emb j) = V c main_call0_v11 j
  congr 1
  funext a
  apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-! ## The first result array -/

/-- Entry `(p, q)` of the first result's block at point `t` sits at row `512 t + p`, column `q` of the array. -/
theorem emb_5 (t : Fin cfg0.N) (p : Fin 512) (q : Fin 256) :
    ((cfg0.win 5).blk t).view.emb (ix2 p q) = (ix2 (rowAt t p) q : S4096x256.Idx) := by
  obtain ⟨-, -, -, -, -, ⟨e0, e1⟩, -⟩ := idx_facts t
  funext a
  apply Fin.ext
  match a with
  | ⟨0, _⟩ => show win0_5.index t (0 : Fin 2) * 512 + 1 * p.val = 512 * t.val + p.val; omega
  | ⟨1, _⟩ => show win0_5.index t (1 : Fin 2) * 256 + 1 * q.val = q.val; omega

/-- What point `t` writes back to the first result array is block `t` of the product of the two whole arrays. -/
theorem flushed5_eq (c : Dev nD) (t : Fin cfg0.N) :
    (dat0 (F := Ideal) V c).flushed 5 t
      = ((cfg0.win 5).blk t).view.read (Elt Ideal) (mm (V c main_arg1 : Arr 4096 128) (V c main_call0_v12 : Arr 128 256)) := by
  show (cfg0.win 5).cut (grid0.coords t) ((dat0 V c).after 5 t) = _
  rw [after0_5, out5_eq]
  funext j
  obtain ⟨p, q, rfl⟩ : ∃ (p : Fin 512) (q : Fin 256), j = ix2 p q := ⟨j 0, j 1, eq_ix2 j⟩
  rw [View.read_apply]
  show (k0_pay1 (F := Ideal) (iblk0 V c 0 t) (iblk0 V c 1 t) : Arr 512 256) (ix2 p q)
    = mm (V c main_arg1 : Arr 4096 128) (V c main_call0_v12 : Arr 128 256) (((cfg0.win 5).blk t).view.emb (ix2 p q))
  rw [emb_5 t p q]
  refine (congrFun (pay1_eq (iblk0 V c 0 t) (iblk0 V c 1 t)) (ix2 p q)).trans ?_
  exact mm_rowBlock (V c main_arg1 : Arr 4096 128) (V c main_call0_v12 : Arr 128 256) (iblk0 V c 0 t) (iblk0 V c 1 t)
    (rowAt t) (iblk_0 V c t) (iblk_1 V c t) p q

/-- An index of the first result array is in point `t`'s block iff each coordinate is in the block's range on its axis. -/
theorem mem_blk5 (t : Fin cfg0.N) (i : S4096x256.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_call0_v14_0).slice (win0_5.rect t)).set ↔ _
  rw [View.set_slice_whole, Rect.mem_set_unit]
  exact Iff.rfl

/-- Every index of the first result array is in the block of the point its row falls to, and every point writes back. -/
theorem cover5 (i : S4096x256.Idx) :
    ∃ t : Fin cfg0.N, (cfg0.win 5).flush t = true ∧ i ∈ ((cfg0.win 5).blk t).view.set := by
  have hi0 : (i 0).val < 4096 := (i 0).isLt
  have hi1 : (i 1).val < 256 := (i 1).isLt
  have h8 : cfg0.N = 8 := N_0
  obtain ⟨t, ht⟩ : ∃ t : Fin cfg0.N, t.val = (i 0).val / 512 := ⟨⟨(i 0).val / 512, by omega⟩, rfl⟩
  obtain ⟨-, -, -, -, -, ⟨e0, e1⟩, -⟩ := idx_facts t
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 256 ≤ (i 1).val ∧ (i 1).val < win0_5.index t (1 : Fin 2) * 256 + 256
    omega

/-- After the first launch its first result array is the product of the two arrays it found. -/
theorem arr5 (c : Dev nD) :
    ((dat0 (F := Ideal) V c).arrAt 5 cfg0.N : Arr 4096 256)
      = mm (V c main_arg1 : Arr 4096 128) (V c main_call0_v12 : Arr 128 256) :=
  (dat0 (F := Ideal) V c).arrAt_eq_of_cover 5 (mm (V c main_arg1 : Arr 4096 128) (V c main_call0_v12 : Arr 128 256))
    (fun t _ => flushed5_eq V c t) cover5

/-! ## The second result array -/

/-- Entry `(p, q)` of the second result's block at point `t` sits at row `512 t + p`, column `q` of the array. -/
theorem emb_6 (t : Fin cfg0.N) (p : Fin 512) (q : Fin 128) :
    ((cfg0.win 6).blk t).view.emb (ix2 p q) = (ix2 (rowAt t p) q : S4096x128.Idx) := by
  obtain ⟨-, -, -, -, -, -, ⟨e0, e1⟩⟩ := idx_facts t
  funext a
  apply Fin.ext
  match a with
  | ⟨0, _⟩ => show win0_6.index t (0 : Fin 2) * 512 + 1 * p.val = 512 * t.val + p.val; omega
  | ⟨1, _⟩ => show win0_6.index t (1 : Fin 2) * 128 + 1 * q.val = q.val; omega

/-- What point `t` writes back to the second result array is block `t` of the embedding part of the head of the
    three whole arrays. -/
theorem flushed6_eq (c : Dev nD) (t : Fin cfg0.N) :
    (dat0 (F := Ideal) V c).flushed 6 t
      = ((cfg0.win 6).blk t).view.read (Elt Ideal)
          (embTerm (V c main_arg6 : Arr 4096 256) (V c main_call0_v7 : Arr 256 128) (V c main_call0_v11 : Arr 1 128)) := by
  show (cfg0.win 6).cut (grid0.coords t) ((dat0 V c).after 6 t) = _
  rw [after0_6, out6_eq]
  funext j
  obtain ⟨p, q, rfl⟩ : ∃ (p : Fin 512) (q : Fin 128), j = ix2 p q := ⟨j 0, j 1, eq_ix2 j⟩
  rw [View.read_apply]
  show (k0_pay2 (F := Ideal) (iblk0 V c 2 t) (iblk0 V c 3 t) (iblk0 V c 4 t) : Arr 512 128) (ix2 p q)
    = embTerm (V c main_arg6 : Arr 4096 256) (V c main_call0_v7 : Arr 256 128) (V c main_call0_v11 : Arr 1 128)
        (((cfg0.win 6).blk t).view.emb (ix2 p q))
  rw [emb_6 t p q]
  refine (congrFun (pay2_eq (iblk0 V c 2 t) (iblk0 V c 3 t) (iblk0 V c 4 t)) (ix2 p q)).trans ?_
  exact embTerm_rowBlock (V c main_arg6 : Arr 4096 256) (V c main_call0_v7 : Arr 256 128) (V c main_call0_v11 : Arr 1 128)
    (iblk0 V c 2 t) (iblk0 V c 3 t) (iblk0 V c 4 t) (rowAt t) (iblk_2 V c t) (iblk_3 V c t) (iblk_4 V c t) p q

/-- An index of the second result array is in point `t`'s block iff each coordinate is in the block's range on its axis. -/
theorem mem_blk6 (t : Fin cfg0.N) (i : S4096x128.Idx) :
    i ∈ ((cfg0.win 6).blk t).view.set ↔ ∀ a : Fin 2, win0_6.index t a * S512x128.size a ≤ (i a).val
      ∧ (i a).val < win0_6.index t a * S512x128.size a + S512x128.size a := by
  show i ∈ ((View.whole main_call0_v14_1).slice (win0_6.rect t)).set ↔ _
  rw [View.set_slice_whole, Rect.mem_set_unit]
  exact Iff.rfl

/-- Every index of the second result array is in the block of the point its row falls to, and every point writes back. -/
theorem cover6 (i : S4096x128.Idx) :
    ∃ t : Fin cfg0.N, (cfg0.win 6).flush t = true ∧ i ∈ ((cfg0.win 6).blk t).view.set := by
  have hi0 : (i 0).val < 4096 := (i 0).isLt
  have hi1 : (i 1).val < 128 := (i 1).isLt
  have h8 : cfg0.N = 8 := N_0
  obtain ⟨t, ht⟩ : ∃ t : Fin cfg0.N, t.val = (i 0).val / 512 := ⟨⟨(i 0).val / 512, by omega⟩, rfl⟩
  obtain ⟨-, -, -, -, -, -, ⟨e0, e1⟩⟩ := idx_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 128 ≤ (i 1).val ∧ (i 1).val < win0_6.index t (1 : Fin 2) * 128 + 128
    omega

/-- After the first launch its second result array is the embedding part of the head. -/
theorem arr6 (c : Dev nD) :
    ((dat0 (F := Ideal) V c).arrAt 6 cfg0.N : Arr 4096 128)
      = embTerm (V c main_arg6 : Arr 4096 256) (V c main_call0_v7 : Arr 256 128) (V c main_call0_v11 : Arr 1 128) :=
  (dat0 (F := Ideal) V c).arrAt_eq_of_cover 6
    (embTerm (V c main_arg6 : Arr 4096 256) (V c main_call0_v7 : Arr 256 128) (V c main_call0_v11 : Arr 1 128))
    (fun t _ => flushed6_eq V c t) cover6

end Cert.KernelIdeal.Reg0

end
-- ==== Proof.KReg1.lean ====
/-
  The second launch: one row tile of 256 rows per grid point, sixteen points.

  At a point the body reads a row tile of the adjacency matrix A and, whole, the first layer's product XW, the bias row b
  and the second weight matrix W1, and stores  relu(A_tile · XW + b) · W1  into the result's row tile. Every operation is
  exact over the extended reals and a change of float format is the identity, so the stored tile is the row tile of
      relu(A · XW + b) · W1,
  because a matrix product, the addition of a bias row and the rectifier all commute with taking a row tile. The sixteen
  row tiles cover the result array, so after the launch the array is that function of the arrays the launch found.
-/
import proofs.«149869_g2000004181024809_pallasbulk_469_2_alg».proof.Proof.Gen.KernelIdeal.Frame
import proofs.«149869_g2000004181024809_pallasbulk_469_2_alg».proof.Proof.Spec
import proofs.«149869_g2000004181024809_pallasbulk_469_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg1
open Cert.KernelIdeal Cert.KernelIdeal.Gen Cert.Spec
variable (V : (c : Dev nD) → (b : Ref sig .tc) → Buf (Elt Ideal) ((c : Thread nD τ).loc b))

/-! ## What the body stores, as a function of the blocks it reads -/

/-- The zero offsets of a whole-block access, however spelt. -/
theorem zero_offsets : (![0, 0] : Fin 2 → Nat) = fun _ => 0 := funext fun a => by fin_cases a <;> rfl

/-- The one whole-block store leaves its payload in the output's buffer. -/
theorem out_eq_payload (x0 : Vec Ideal S256x4096 .f32) (x1 : Vec Ideal S4096x256 .bf16) (x2 : Vec Ideal S1x256 .f32)
    (x3 : Vec Ideal S256x256 .bf16) : out1_4 x0 x1 x2 x3 = k1_pay1 x0 x1 x2 x3 := by
  unfold out1_4
  rw [View.canon_unit_zero zero_offsets]
  simp only [View.ld_unit_zero (S := S256x4096) zero_offsets, View.ld_unit_zero (S := S4096x256) zero_offsets,
    View.ld_unit_zero (S := S1x256) zero_offsets, View.ld_unit_zero (S := S256x256) zero_offsets]

/-- The first product contracts the left operand's columns with the right operand's rows, with no batch axis. -/
theorem dot1_plain : dot_S256x4096_S4096x256_S256x256_1_0_0_1_n_n = DotDims.plain 256 4096 256 := rfl
/-- So does the second. -/
theorem dot2_plain : dot_S256x256_S256x256_S256x256_1_0_0_1_n_n = DotDims.plain 256 256 256 := rfl

/-- The first product of the body, accumulated into zero, at an entry. -/
theorem matmul1_apply (L : FVec Ideal S256x4096 .bf16) (R : FVec Ideal S4096x256 .bf16) (p : Fin 256) (j : Fin 256) :
    matmul (F := Ideal) dot_S256x4096_S4096x256_S256x256_1_0_0_1_n_n none L R (constant S256x256 .f32 0x00000000#32) (ix2 p j)
      = ∑ k : Fin 4096, L (ix2 p k) * R (ix2 k j) := by
  rw [dot1_plain]
  exact PlainDot.matmul_zero_apply 256 4096 256 none L R p j

/-- The second product of the body, accumulated into zero, at an entry. -/
theorem matmul2_apply (L : FVec Ideal S256x256 .bf16) (R : FVec Ideal S256x256 .bf16) (p : Fin 256) (j : Fin 256) :
    matmul (F := Ideal) dot_S256x256_S256x256_S256x256_1_0_0_1_n_n none L R (constant S256x256 .f32 0x00000000#32) (ix2 p j)
      = ∑ k : Fin 256, L (ix2 p k) * R (ix2 k j) := by
  rw [dot2_plain]
  exact PlainDot.matmul_zero_apply 256 256 256 none L R p j

/-- What the body stores is the rectified sum of the first product and the bias row, times the second weight matrix:
    entry by entry, each product a plain sum and the zero literal the number zero. -/
theorem payload_eq (x0 : FVec Ideal S256x4096 .f32) (x1 : FVec Ideal S4096x256 .bf16) (x2 : FVec Ideal S1x256 .f32)
    (x3 : FVec Ideal S256x256 .bf16) :
    (k1_pay1 (F := Ideal) x0 x1 x2 x3 : Arr 256 256)
      = mm (relu (addRow (mm (x0 : Arr 256 4096) (x1 : Arr 4096 256)) (x2 : Arr 1 256))) (x3 : Arr 256 256) := by
  funext j
  obtain ⟨p, q, rfl⟩ : ∃ (p : Fin 256) (q : Fin 256), j = ix2 p q := ⟨j 0, j 1, eq_ix2 j⟩
  unfold k1_pay1
  refine (matmul2_apply _ _ p q).trans ?_
  rw [mm_apply]
  refine Finset.sum_congr rfl fun k _ => ?_
  rw [shapeCast_self x3]
  refine congrArg (· * x3 (ix2 k q)) ?_
  show max (matmul (F := Ideal) dot_S256x4096_S4096x256_S256x256_1_0_0_1_n_n none (truncf .bf16 x0 bitsLt_bf16_f32)
      (shapeCast S4096x256 x1 shapeCasts_S4096x256_S4096x256) (constant S256x256 .f32 0x00000000#32) (ix2 p k)
      + broadcastTo S256x256 x2 broadcasts_S1x256_S256x256 (ix2 p k)) (Ideal.ofBits .f32 0x00000000#32)
    = max (mm (x0 : Arr 256 4096) (x1 : Arr 4096 256) (ix2 p k) + x2 (ix2 0 k)) 0
  rw [matmul1_apply, shapeCast_self x1, broadcastTo_1b_ab_apply, Ideal.ofBits_zero_f32, mm_apply]
  rfl

/-! ## Row blocks -/

/-- Rows `o` to `o + R − 1` of an array. -/
def rowBlk (R : Nat) {M N : Nat} (X : Arr M N) (o : Nat) (h : o + R ≤ M) : Arr R N :=
  fun i => X (ix2 ⟨o + (i 0).val, by have := idx2_lt0 i; omega⟩ (col i))

theorem rowBlk_apply (R : Nat) {M N : Nat} (X : Arr M N) (o : Nat) (h : o + R ≤ M) (p : Fin R) (j : Fin N) :
    rowBlk R X o h (ix2 p j) = X (ix2 ⟨o + p.val, by have := p.isLt; omega⟩ j) := rfl

/-- A row block of a product is the product of the row block of the left factor with the right factor. -/
theorem mm_rowBlk (R : Nat) {M K N : Nat} (A : Arr M K) (B : Arr K N) (o : Nat) (h : o + R ≤ M) :
    mm (rowBlk R A o h) B = rowBlk R (mm A B) o h := rfl

/-- Adding a bias row commutes with taking a row block. -/
theorem addRow_rowBlk (R : Nat) {M N : Nat} (X : Arr M N) (b : Arr 1 N) (o : Nat) (h : o + R ≤ M) :
    addRow (rowBlk R X o h) b = rowBlk R (addRow X b) o h := rfl

/-- The rectifier commutes with taking a row block. -/
theorem relu_rowBlk (R : Nat) {M N : Nat} (X : Arr M N) (o : Nat) (h : o + R ≤ M) :
    relu (rowBlk R X o h) = rowBlk R (relu X) o h := rfl

/-! ## The windows' blocks, read off their arrays -/

/-- The grid has sixteen points. -/
theorem pt_lt (t : Fin cfg1.N) : t.val < 16 := lt_of_lt_of_eq t.isLt N_1

/-- The block indices, decided over the grid: the first operand and the result move down one row tile per point; the
    other operands stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first operand's block at point `t` is rows `256 t` to `256 t + 255` of its array. -/
theorem blk0_eq (c : Dev nD) (t : Fin cfg1.N) :
    (iblk1 V c 0 t : Arr 256 4096)
      = rowBlk 256 (V c main_arg0 : Arr 4096 4096) (256 * t.val) (by have := pt_lt t; omega) := by
  funext y
  obtain ⟨p, k, rfl⟩ : ∃ (p : Fin 256) (k : Fin 4096), y = ix2 p k := ⟨y 0, y 1, eq_ix2 y⟩
  rw [rowBlk_apply]
  show V c main_arg0 (((cfg1.win 0).blk t).view.emb (ix2 p k)) = V c main_arg0 _
  refine congrArg (V c main_arg0) (funext fun a => Fin.ext ?_)
  obtain ⟨e0, e1, -⟩ := index_facts t
  match a with
  | ⟨0, _⟩ => show win1_0.index t (0 : Fin 2) * 256 + 1 * p.val = 256 * t.val + p.val; omega
  | ⟨1, _⟩ => show win1_0.index t (1 : Fin 2) * 4096 + 1 * k.val = k.val; omega

/-- The second operand's block at every point is its whole array. -/
theorem blk1_eq (c : Dev nD) (t : Fin cfg1.N) :
    (iblk1 V c 1 t : Arr 4096 256) = (V c main_call0_v14_0 : Arr 4096 256) := by
  funext y
  show V c main_call0_v14_0 (((cfg1.win 1).blk t).view.emb y) = V c main_call0_v14_0 y
  refine congrArg (V c main_call0_v14_0) (funext fun a => Fin.ext ?_)
  obtain ⟨-, -, e0, e1, -⟩ := index_facts t
  match a with
  | ⟨0, _⟩ => show win1_1.index t (0 : Fin 2) * 4096 + 1 * (y 0).val = (y 0).val; omega
  | ⟨1, _⟩ => show win1_1.index t (1 : Fin 2) * 256 + 1 * (y 1).val = (y 1).val; omega

/-- The bias row's block at every point is its whole array. -/
theorem blk2_eq (c : Dev nD) (t : Fin cfg1.N) :
    (iblk1 V c 2 t : Arr 1 256) = (V c main_arg3 : Arr 1 256) := by
  funext y
  show V c main_arg3 (((cfg1.win 2).blk t).view.emb y) = V c main_arg3 y
  refine congrArg (V c main_arg3) (funext fun a => Fin.ext ?_)
  obtain ⟨-, -, -, -, e0, e1, -⟩ := index_facts t
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- The second weight matrix's block at every point is its whole array. -/
theorem blk3_eq (c : Dev nD) (t : Fin cfg1.N) :
    (iblk1 V c 3 t : Arr 256 256) = (V c main_call0_v13 : Arr 256 256) := by
  funext y
  show V c main_call0_v13 (((cfg1.win 3).blk t).view.emb y) = V c main_call0_v13 y
  refine congrArg (V c main_call0_v13) (funext fun a => Fin.ext ?_)
  obtain ⟨-, -, -, -, -, -, e0, e1, -⟩ := index_facts t
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The result's block at point `t`, read off any array, is rows `256 t` to `256 t + 255` of that array. -/
theorem read_blk4_eq (t : Fin cfg1.N) (G : Arr 4096 256) :
    (((cfg1.win 4).blk t).view.read (Elt Ideal) G : Arr 256 256)
      = rowBlk 256 G (256 * t.val) (by have := pt_lt t; omega) := by
  funext y
  obtain ⟨p, q, rfl⟩ : ∃ (p : Fin 256) (q : Fin 256), y = ix2 p q := ⟨y 0, y 1, eq_ix2 y⟩
  rw [rowBlk_apply]
  show G (((cfg1.win 4).blk t).view.emb (ix2 p q)) = G _
  refine congrArg G (funext fun a => Fin.ext ?_)
  obtain ⟨-, -, -, -, -, -, -, -, e0, e1⟩ := index_facts t
  match a with
  | ⟨0, _⟩ => show win1_4.index t (0 : Fin 2) * 256 + 1 * p.val = 256 * t.val + p.val; omega
  | ⟨1, _⟩ => show win1_4.index t (1 : Fin 2) * 256 + 1 * q.val = q.val; omega

/-! ## From the blocks to the array -/

/-- The rectified first layer times the second weight matrix, of the arrays the launch finds. -/
abbrev layer (c : Dev nD) : Arr 4096 256 :=
  mm (relu (addRow (mm (V c main_arg0 : Arr 4096 4096) (V c main_call0_v14_0 : Arr 4096 256)) (V c main_arg3 : Arr 1 256)))
    (V c main_call0_v13 : Arr 256 256)

/-- What point `t` writes back is its block of `layer`. -/
theorem flushed_eq (c : Dev nD) (t : Fin cfg1.N) :
    (dat1 (F := Ideal) V c).flushed 4 t = ((cfg1.win 4).blk t).view.read (Elt Ideal) (layer V c) := by
  show (cfg1.win 4).cut (grid1.coords t) ((dat1 V c).after 4 t) = _
  rw [after1_4, out_eq_payload]
  refine ((payload_eq (iblk1 V c 0 t) (iblk1 V c 1 t) (iblk1 V c 2 t) (iblk1 V c 3 t)).trans ?_).trans
    (read_blk4_eq t (layer V c)).symm
  rw [blk0_eq, blk1_eq, blk2_eq, blk3_eq, mm_rowBlk, addRow_rowBlk, relu_rowBlk, mm_rowBlk]

/-- An index of the result array lies in point `t`'s block iff each coordinate lies in the block's range on its axis. -/
theorem mem_blk4 (t : Fin cfg1.N) (i : S4096x256.Idx) :
    i ∈ ((cfg1.win 4).blk t).view.set ↔ ∀ a : Fin 2, win1_4.index t a * S256x256.size a ≤ (i a).val
      ∧ (i a).val < win1_4.index t a * S256x256.size a + S256x256.size a := by
  show i ∈ ((View.whole main_call0_v15).slice (win1_4.rect t)).set ↔ _
  rw [View.set_slice_whole, Rect.mem_set_unit]
  exact Iff.rfl

/-- Every row of the result array lies in the block of the point numbered by its row tile, and every point writes back. -/
theorem covered (i : S4096x256.Idx) :
    ∃ t : Fin cfg1.N, (cfg1.win 4).flush t = true ∧ i ∈ ((cfg1.win 4).blk t).view.set := by
  have hi0 : (i 0).val < 4096 := (i 0).isLt
  have hi1 : (i 1).val < 256 := (i 1).isLt
  obtain ⟨t, ht⟩ : ∃ t : Fin cfg1.N, t.val = (i 0).val / 256 :=
    ⟨⟨(i 0).val / 256, lt_of_lt_of_eq (by omega : (i 0).val / 256 < 16) N_1.symm⟩, rfl⟩
  refine ⟨t, flush1_4 t, ?_⟩
  rw [mem_blk4]
  obtain ⟨-, -, -, -, -, -, -, -, e0, e1⟩ := index_facts t
  intro a
  match a with
  | ⟨0, _⟩ =>
    show win1_4.index t (0 : Fin 2) * 256 ≤ (i 0).val ∧ (i 0).val < win1_4.index t (0 : Fin 2) * 256 + 256
    omega
  | ⟨1, _⟩ =>
    show win1_4.index t (1 : Fin 2) * 256 ≤ (i 1).val ∧ (i 1).val < win1_4.index t (1 : Fin 2) * 256 + 256
    omega

/-- After the second launch its result array is the rectified first layer times the second weight matrix. -/
theorem arr4 (c : Dev nD) :
    ((dat1 (F := Ideal) V c).arrAt 4 cfg1.N : Arr 4096 256)
      = mm (relu (addRow (mm (V c main_arg0 : Arr 4096 4096) (V c main_call0_v14_0 : Arr 4096 256)) (V c main_arg3 : Arr 1 256)))
          (V c main_call0_v13 : Arr 256 256) :=
  (dat1 (F := Ideal) V c).arrAt_eq_of_cover 4 (layer V c) (fun t _ => flushed_eq V c t) covered

end Cert.KernelIdeal.Reg1

end
-- ==== Proof.KReg2.lean ====
/-
  The third launch of the kernel, read off its result array.

  Each of the 16 grid points takes a block of 256 rows of the adjacency, forms the second layer of those rows (their
  product with the weights, plus the bias row), and stores the head over it: twice its product with the prototypes,
  minus the squared norm of each of its rows, plus the matching rows of the term computed before. A row of the head
  reads only that row of the adjacency and of the added term, so the blocks the points write back are the row blocks
  of ONE array: the head over the second layer of the whole adjacency.
-/
import proofs.«149869_g2000004181024809_pallasbulk_469_2_alg».proof.Proof.Gen.KernelIdeal.Frame
import proofs.«149869_g2000004181024809_pallasbulk_469_2_alg».proof.Proof.Spec
import proofs.«149869_g2000004181024809_pallasbulk_469_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg2
open Cert.KernelIdeal Cert.KernelIdeal.Gen Cert.Spec

/-! ## Operations of the body read at an index -/

/-- The first product of the body, a [256, 4096] block against the [4096, 256] weights, at row p and column j. -/
theorem prodA_apply (L : FVec Ideal S256x4096 .bf16) (R : FVec Ideal S4096x256 .bf16) (p : Fin 256) (j : Fin 256) :
    matmul (F := Ideal) dot_S256x4096_S4096x256_S256x256_1_0_0_1_n_n none L R (constant S256x256 .f32 0x00000000#32) (ix2 p j)
      = ∑ k : Fin 4096, L (ix2 p k) * R (ix2 k j) :=
  PlainDot.matmul_zero_apply 256 4096 256 none L R p j

/-- The second product of the body, the [256, 256] hidden block against the [256, 128] prototypes, at row p and column j. -/
theorem prodH_apply (L : FVec Ideal S256x256 .bf16) (R : FVec Ideal S256x128 .bf16) (p : Fin 256) (j : Fin 128) :
    matmul (F := Ideal) dot_S256x256_S256x128_S256x128_1_0_0_1_n_n none L R (constant S256x128 .f32 0x00000000#32) (ix2 p j)
      = ∑ k : Fin 256, L (ix2 p k) * R (ix2 k j) :=
  PlainDot.matmul_zero_apply 256 256 128 none L R p j

/-- The sum along a row of a [256, 256] block, at row p. -/
theorem rowSum_apply (x : FVec Ideal S256x256 .f32) (p : Fin 256) :
    multiReduction (F := Ideal) .add [1] S256 x 0x00000000#32 reduces_S256x256_S256 (.inl rfl) rfl (ix1 p)
      = ∑ k : Fin 256, x (ix2 p k) := by
  refine (Ideal.multiReduction_add_single x 0x00000000#32 reduces_S256x256_S256 (.inl rfl) rfl (ix1 p)).trans ?_
  refine Finset.sum_congr rfl fun k _ => congrArg x ?_
  funext a
  apply Fin.ext
  match a with
  | ⟨0, _⟩ => rfl
  | ⟨1, _⟩ => rfl

/-- A vector of length a seen as a column [a, 1] reads, at (i, u), the vector at i. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (i, c), the column at i. -/
theorem spread_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The body's value as the head over its blocks -/

/-- The hidden block of the body (the first product plus the bias row) is the second layer of the row block. -/
theorem hidden_apply (x0 : FVec Ideal S256x4096 .f32) (x1 : FVec Ideal S4096x256 .bf16) (x2 : FVec Ideal S1x256 .f32)
    (p : Fin 256) (k : Fin 256) :
    addf (matmul (F := Ideal) dot_S256x4096_S4096x256_S256x256_1_0_0_1_n_n none (truncf .bf16 x0 bitsLt_bf16_f32) x1
        (constant S256x256 .f32 0x00000000#32)) (broadcastTo S256x256 x2 broadcasts_S1x256_S256x256) (ix2 p k)
      = addRow (mm (x0 : Arr 256 4096) (x1 : Arr 4096 256)) (x2 : Arr 1 256) (ix2 p k) := by
  rw [addRow_apply, mm_apply]
  refine (addf_apply _ _ _).trans ?_
  rw [prodA_apply, broadcastTo_1b_ab_apply]
  rfl

/-- What the body stores, from the blocks it loads: the head over the second layer of the row block. -/
theorem body_eq (x0 : FVec Ideal S256x4096 .f32) (x1 : FVec Ideal S4096x256 .bf16) (x2 : FVec Ideal S1x256 .f32)
    (x3 : FVec Ideal S256x128 .bf16) (x4 : FVec Ideal S256x128 .f32) :
    (k2_pay1 (F := Ideal) x0 x1 x2 x3 x4 : Arr 256 128)
      = headK (addRow (mm (x0 : Arr 256 4096) (x1 : Arr 4096 256)) (x2 : Arr 1 256)) (x3 : Arr 256 128) (x4 : Arr 256 128) := by
  funext j
  obtain ⟨p, q, rfl⟩ : ∃ (p : Fin 256) (q : Fin 128), j = ix2 p q := ⟨j 0, j 1, eq_ix2 j⟩
  unfold k2_pay1
  simp only [addf_apply, subf_apply, mulf_apply, broadcast_apply, shapeCast_self]
  rw [headK_apply, mm_apply]
  unfold rowSq
  refine congrArg₂ (· + ·) (congrArg₂ (· - ·) (congrArg₂ (· * ·) rfl ?_) ?_) rfl
  · refine (prodH_apply _ _ p q).trans (Finset.sum_congr rfl fun k _ => ?_)
    rw [truncf_apply, hidden_apply]
  · refine (spread_apply _ _ p q).trans ((column_apply _ _ p 0).trans ((rowSum_apply _ p).trans
      (Finset.sum_congr rfl fun k _ => ?_)))
    rw [mulf_apply, hidden_apply]

/-! ## Row blocks of the arrays -/

/-- Rows 256·t … 256·t + 255 of an array of 4096 rows. -/
def rows {N : Nat} (t : Nat) (ht : t < 16) (A : Arr 4096 N) : Arr 256 N :=
  fun i => A (ix2 ⟨256 * t + (i 0).val, by have := idx2_lt0 i; omega⟩ (col i))

/-- The head over the second layer commutes with taking a row block: a row of the result reads only that row of the
    adjacency and of the added term, and all of the weights, the bias and the prototypes. -/
theorem head_rows (t : Nat) (ht : t < 16) (A : Arr 4096 4096) (B : Arr 4096 256) (b : Arr 1 256) (PH : Arr 256 128)
    (K : Arr 4096 128) :
    headK (addRow (mm (rows t ht A) B) b) PH (rows t ht K) = rows t ht (headK (addRow (mm A B) b) PH K) := rfl

/-! ## The windows' blocks read off their arrays -/

/-- The offsets of the body's whole-block loads and store are zero on both axes. -/
theorem zeroOff : (![0, 0] : Fin 2 → Nat) = fun _ => 0 := funext fun a => by fin_cases a <;> rfl

/-- The windows' index maps over the grid: the adjacency, the added term and the result move one row block per point;
    the weights, the bias and the prototypes stay whole. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The adjacency's block at point t is its row block t. -/
theorem adj_blk (c : Dev nD) (t : Fin cfg2.N) (ht : t.val < 16) :
    (iblk2 V c 0 t : Arr 256 4096) = rows t.val ht (V c main_arg0 : Arr 4096 4096) := by
  obtain ⟨e0, e1, -⟩ := index_facts t
  funext y
  show (V c main_arg0 : Arr 4096 4096) (((cfg2.win 0).blk t).view.emb y) = rows t.val ht (V c main_arg0 : Arr 4096 4096) y
  refine congrArg (V c main_arg0 : Arr 4096 4096) (funext fun a => Fin.ext ?_)
  match a with
  | ⟨0, _⟩ => show win2_0.index t (0 : Fin 2) * 256 + 1 * (y 0).val = 256 * t.val + (y 0).val; omega
  | ⟨1, _⟩ => show win2_0.index t (1 : Fin 2) * 4096 + 1 * (y 1).val = (y 1).val; omega

/-- The weights' block at every point is the whole array. -/
theorem wts_blk (c : Dev nD) (t : Fin cfg2.N) :
    (iblk2 V c 1 t : Arr 4096 256) = (V c main_call0_v15 : Arr 4096 256) := by
  obtain ⟨-, -, e0, e1, -⟩ := index_facts t
  funext y
  show (V c main_call0_v15 : Arr 4096 256) (((cfg2.win 1).blk t).view.emb y) = (V c main_call0_v15 : Arr 4096 256) y
  refine congrArg (V c main_call0_v15 : Arr 4096 256) (funext fun a => Fin.ext ?_)
  match a with
  | ⟨0, _⟩ => show win2_1.index t (0 : Fin 2) * 4096 + 1 * (y 0).val = (y 0).val; omega
  | ⟨1, _⟩ => show win2_1.index t (1 : Fin 2) * 256 + 1 * (y 1).val = (y 1).val; omega

/-- The bias row's block at every point is the whole row. -/
theorem bias_blk (c : Dev nD) (t : Fin cfg2.N) :
    (iblk2 V c 2 t : Arr 1 256) = (V c main_arg5 : Arr 1 256) := by
  obtain ⟨-, -, -, -, e0, e1, -⟩ := index_facts t
  funext y
  show (V c main_arg5 : Arr 1 256) (((cfg2.win 2).blk t).view.emb y) = (V c main_arg5 : Arr 1 256) y
  refine congrArg (V c main_arg5 : Arr 1 256) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- The prototypes' block at every point is the whole array. -/
theorem proto_blk (c : Dev nD) (t : Fin cfg2.N) :
    (iblk2 V c 3 t : Arr 256 128) = (V c main_call0_v3 : Arr 256 128) := by
  obtain ⟨-, -, -, -, -, -, e0, e1, -⟩ := index_facts t
  funext y
  show (V c main_call0_v3 : Arr 256 128) (((cfg2.win 3).blk t).view.emb y) = (V c main_call0_v3 : Arr 256 128) y
  refine congrArg (V c main_call0_v3 : Arr 256 128) (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- The added term's block at point t is its row block t. -/
theorem emb_blk (c : Dev nD) (t : Fin cfg2.N) (ht : t.val < 16) :
    (iblk2 V c 4 t : Arr 256 128) = rows t.val ht (V c main_call0_v14_1 : Arr 4096 128) := by
  obtain ⟨-, -, -, -, -, -, -, -, e0, e1, -⟩ := index_facts t
  funext y
  show (V c main_call0_v14_1 : Arr 4096 128) (((cfg2.win 4).blk t).view.emb y)
    = rows t.val ht (V c main_call0_v14_1 : Arr 4096 128) y
  refine congrArg (V c main_call0_v14_1 : Arr 4096 128) (funext fun a => Fin.ext ?_)
  match a with
  | ⟨0, _⟩ => show win2_4.index t (0 : Fin 2) * 256 + 1 * (y 0).val = 256 * t.val + (y 0).val; omega
  | ⟨1, _⟩ => show win2_4.index t (1 : Fin 2) * 128 + 1 * (y 1).val = (y 1).val; omega

/-- The result window's block at point t, read off any array, is that array's row block t. -/
theorem res_blk (t : Fin cfg2.N) (ht : t.val < 16) (G : Arr 4096 128) :
    (((cfg2.win 5).blk t).view.read (Elt Ideal) G : Arr 256 128) = rows t.val ht G := by
  obtain ⟨-, -, -, -, -, -, -, -, -, -, e0, e1⟩ := index_facts t
  funext y
  show G (((cfg2.win 5).blk t).view.emb y) = rows t.val ht G y
  refine congrArg G (funext fun a => Fin.ext ?_)
  match a with
  | ⟨0, _⟩ => show win2_5.index t (0 : Fin 2) * 256 + 1 * (y 0).val = 256 * t.val + (y 0).val; omega
  | ⟨1, _⟩ => show win2_5.index t (1 : Fin 2) * 128 + 1 * (y 1).val = (y 1).val; omega

/-! ## From the blocks to the array -/

/-- The result array as one function of the arrays the launch starts from. -/
abbrev result (c : Dev nD) : Arr 4096 128 :=
  headK (addRow (mm (V c main_arg0 : Arr 4096 4096) (V c main_call0_v15 : Arr 4096 256)) (V c main_arg5 : Arr 1 256))
    (V c main_call0_v3 : Arr 256 128) (V c main_call0_v14_1 : Arr 4096 128)

/-- What point t writes back is row block t of the result. -/
theorem flushed_eq (c : Dev nD) (t : Fin cfg2.N) :
    (dat2 (F := Ideal) V c).flushed 5 t = ((cfg2.win 5).blk t).view.read (Elt Ideal) (result V c) := by
  have ht : t.val < 16 := Nat.lt_of_lt_of_eq t.isLt N_2
  show (cfg2.win 5).cut (grid2.coords t) ((dat2 (F := Ideal) V c).after 5 t) = _
  rw [after2_5]
  unfold out2_5
  rw [View.canon_unit_zero zeroOff]
  simp only [View.ld_unit_zero (S := S256x4096) zeroOff, View.ld_unit_zero (S := S4096x256) zeroOff,
    View.ld_unit_zero (S := S1x256) zeroOff, View.ld_unit_zero (S := S256x128) zeroOff]
  refine (body_eq _ _ _ _ _).trans ?_
  rw [adj_blk V c t ht, wts_blk V c t, bias_blk V c t, proto_blk V c t, emb_blk V c t ht, head_rows]
  exact (res_blk t ht (result V c)).symm

/-- An index of the result array is in point t's block iff each coordinate is in the block's range on its axis. -/
theorem mem_blk (t : Fin cfg2.N) (i : S4096x128.Idx) :
    i ∈ ((cfg2.win 5).blk t).view.set
      ↔ ∀ a : Fin 2, win2_5.index t a * S256x128.size a ≤ (i a).val ∧ (i a).val < win2_5.index t a * S256x128.size a + S256x128.size a := by
  show i ∈ ((View.whole main_call0_v16).slice (win2_5.rect t)).set ↔ _
  rw [View.set_slice_whole, Rect.mem_set_unit]
  exact Iff.rfl

/-- Every row of the result array lies in the block of the point its row block names, and every point writes back. -/
theorem covered (i : S4096x128.Idx) :
    ∃ t : Fin cfg2.N, (cfg2.win 5).flush t = true ∧ i ∈ ((cfg2.win 5).blk t).view.set := by
  have hi0 : (i 0).val < 4096 := (i 0).isLt
  have hi1 : (i 1).val < 128 := (i 1).isLt
  let t : Fin cfg2.N := ⟨(i 0).val / 256, Nat.lt_of_lt_of_eq (by omega) N_2.symm⟩
  obtain ⟨-, -, -, -, -, -, -, -, -, -, e0, e1⟩ := index_facts t
  have e0' : win2_5.index t (0 : Fin 2) = (i 0).val / 256 := e0
  refine ⟨t, flush2_5 t, ?_⟩
  rw [mem_blk]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 128 ≤ (i 1).val ∧ (i 1).val < win2_5.index t (1 : Fin 2) * 128 + 128; omega

/-- After the third launch its result array is the head over the second layer, with the embedding part added. -/
theorem arr5 (c : Dev nD) :
    ((dat2 (F := Ideal) V c).arrAt 5 cfg2.N : Arr 4096 128)
      = headK (addRow (mm (V c main_arg0 : Arr 4096 4096) (V c main_call0_v15 : Arr 4096 256)) (V c main_arg5 : Arr 1 256))
          (V c main_call0_v3 : Arr 256 128) (V c main_call0_v14_1 : Arr 4096 128) :=
  (dat2 (F := Ideal) V c).arrAt_eq_of_cover 5 (result V c) (fun t _ => flushed_eq V c t) covered

end Cert.KernelIdeal.Reg2

end
-- ==== Proof.KHost.lean ====
import proofs.«149869_g2000004181024809_pallasbulk_469_2_alg».proof.Proof.Gen.KernelIdeal.Frame
import proofs.«149869_g2000004181024809_pallasbulk_469_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.KernelVsHost
import Idealize.ShloMosaic.Lib.IdealHost

noncomputable section

open Idealize.ShloMosaic Idealize.ShloMosaic.TcCoe Idealize.SL.Sem
open Idealize.ShloMosaic.Pipeline (Dat)
open Idealize.ShloMosaic.ValueIdx

namespace Cert.KernelIdeal.HostVal
open Cert.KernelIdeal Cert.KernelIdeal.Gen Cert.Spec
variable (m : (ℓ : Loc nD τ sig) → Buf (Elt Ideal) ℓ) (ρ : Dev nD → PrngReg)

/-! ## The layout operations of the prototype matrices, over any operand -/

/-- A slice of the prototypes from column `o`, transposed, with its float format changed (the identity on extended
    reals) and padded on the right from 64 to 128 columns, read at (h, j) with j inside the operand: the
    prototypes' entry (j, o + h). The padding value is never looked at. -/
theorem padT_apply (o : Nat) (X : FVec Ideal S64x512 .f32) (v : FVec Ideal S_ .bf16)
    (hs : S64x512.Slices ![0, o] S64x256) (h : Fin 256) (j : Fin 128) (hj : j.val < 64)
    (k : Fin 512) (hk : k.val = o + h.val) :
    pad S256x128 ![0, 0] ![0, 64] ![0, 0]
        (truncf (F := Ideal) .bf16
          (transpose S256x64 [1, 0] (extractStridedSlice S64x256 ![0, o] X hs) transposes_S64x256_S256x64_1_0)
          bitsLt_bf16_f32)
        v pads_S256x64_S256x128_000_0640 h_S_ (ix2 h j)
      = X (ix2 ⟨j.val, hj⟩ k) := by
  refine (pad_apply_of_inside _ _ _ _ v pads_S256x64_S256x128_000_0640 h_S_ (ix2 h j) (ix2 h (⟨j.val, hj⟩ : Fin 64))
      (fun a => by
        match a with
        | ⟨0, _⟩ => show h.val = 0 + h.val * (0 + 1); omega
        | ⟨1, _⟩ => show j.val = 0 + j.val * (0 + 1); omega)).trans ?_
  refine (truncf_apply _ bitsLt_bf16_f32 _).trans ?_
  refine (transpose_ix2_apply (extractStridedSlice S64x256 ![0, o] X hs) transposes_S64x256_S256x64_1_0 h ⟨j.val, hj⟩).trans ?_
  exact slice2_axis1_apply o X hs ⟨j.val, hj⟩ h k hk

/-- The index the sum over the columns inserts into row j is (j, k). -/
theorem lift_row (hr : S64x512.Reduces [1] S64) (j : Fin 64) (k : Fin 512) :
    hr.lift (ix1 j) k = ix2 j k := by
  funext a
  match a with
  | ⟨0, _⟩ => exact Fin.ext rfl
  | ⟨1, _⟩ => exact Fin.ext rfl

/-- The row of squared norms: the entrywise square summed over the columns from the zero literal, laid out as one
    row and padded on the right from 64 to 128 columns, read at (0, j) with j inside the operand: the sum of the
    squares of row j. -/
theorem padN_apply (X : FVec Ideal S64x512 .f32) (v : FVec Ideal S_ .f32) (j : Fin 128) (hj : j.val < 64) :
    pad S1x128 ![0, 0] ![0, 64] ![0, 0]
        (broadcastInDim S1x64 ![1] bcast_S64_S1x64_1
          (Host.reduceAdd (F := Ideal) (mulf X X) (constant (F := Ideal) S_ .f32 0x00000000#32) reducesTo_S64x512_S64_d1 h_S_))
        v pads_S1x64_S1x128_000_0640 h_S_ (ix2 (0 : Fin 1) j)
      = ∑ k : Fin 512, X (ix2 ⟨j.val, hj⟩ k) * X (ix2 ⟨j.val, hj⟩ k) := by
  have hr : S64x512.Reduces [1] S64 := by decide
  refine (pad_apply_of_inside _ _ _ _ v pads_S1x64_S1x128_000_0640 h_S_ (ix2 (0 : Fin 1) j)
      (ix2 (0 : Fin 1) (⟨j.val, hj⟩ : Fin 64)) (fun a => by
        match a with
        | ⟨0, _⟩ => rfl
        | ⟨1, _⟩ => show j.val = 0 + j.val * (0 + 1); omega)).trans ?_
  refine (broadcastInDim_apply ![1] bcast_S64_S1x64_1 _ (ix2 (0 : Fin 1) (⟨j.val, hj⟩ : Fin 64))
      (ix1 (⟨j.val, hj⟩ : Fin 64)) (fun a => by
        match a with
        | ⟨0, _⟩ => rfl)).trans ?_
  refine (hostReduceAdd_apply (mulf X X) _ reducesTo_S64x512_S64_d1 h_S_ _).trans ?_
  refine (Ideal.hostReduceAdd_single reducesTo_S64x512_S64_d1 hr _ _ _).trans ?_
  rw [constant_apply, Ideal.ofBits_zero_f32, zero_add]
  refine Finset.sum_congr rfl fun k _ => ?_
  rw [lift_row hr ⟨j.val, hj⟩ k, mulf_apply]

/-! ## The first launch's entry contents -/

/-- The first weight matrix reaches the first launch unchanged (a change of float format is the identity). -/
theorem w0 (c : Dev nD) : (V1 m ρ c main_call0_v12 : Arr 128 256) = (m ((c : Thread nD τ).loc main_arg2) : Arr 128 256) := by
  have e : (V1 m ρ c main_call0_v12 : S128x256.Idx → EReal)
      = truncf (F := Ideal) .bf16 (W0 m ρ c (Proc.devRef .tc main_arg2) : FVec Ideal S128x256 .f32) bitsLt_bf16_f32 := by
    dsimp only [V1, W1, hostOps0]; after_results; rfl
  exact e.trans rfl

/-- The second weight matrix likewise. -/
theorem w1 (c : Dev nD) : (V1 m ρ c main_call0_v13 : Arr 256 256) = (m ((c : Thread nD τ).loc main_arg4) : Arr 256 256) := by
  have e : (V1 m ρ c main_call0_v13 : S256x256.Idx → EReal)
      = truncf (F := Ideal) .bf16 (W0 m ρ c (Proc.devRef .tc main_arg4) : FVec Ideal S256x256 .f32) bitsLt_bf16_f32 := by
    dsimp only [V1, W1, hostOps0]; after_results; rfl
  exact e.trans rfl

/-- An argument array is as launched when the first launch is entered: no host operation writes it. -/
theorem arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem arg1 (c : Dev nD) : V1 m ρ c main_arg1 = m ((c : Thread nD τ).loc main_arg1) :=
  calc V1 m ρ c main_arg1
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem arg3 (c : Dev nD) : V1 m ρ c main_arg3 = m ((c : Thread nD τ).loc main_arg3) :=
  calc V1 m ρ c main_arg3
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem arg5 (c : Dev nD) : V1 m ρ c main_arg5 = m ((c : Thread nD τ).loc main_arg5) :=
  calc V1 m ρ c main_arg5
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem arg6 (c : Dev nD) : V1 m ρ c main_arg6 = m ((c : Thread nD τ).loc main_arg6) :=
  calc V1 m ρ c main_arg6
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Column j < 64 of the padded transposed first half of the prototypes: entry (h, j) is prototype j's entry h. -/
theorem ph_apply (c : Dev nD) (h : Fin 256) (j : Fin 128) (hj : j.val < 64) :
    (V1 m ρ c main_call0_v3 : Arr 256 128) (ix2 h j)
      = (m ((c : Thread nD τ).loc main_arg7) : Arr 64 512) (ix2 ⟨j.val, hj⟩ ⟨h.val, by omega⟩) := by
  have e : (V1 m ρ c main_call0_v3 : S256x128.Idx → EReal)
      = pad S256x128 ![0, 0] ![0, 64] ![0, 0]
          (truncf (F := Ideal) .bf16
            (transpose S256x64 [1, 0]
              (extractStridedSlice S64x256 ![0, 0] (W0 m ρ c (Proc.devRef .tc main_arg7) : FVec Ideal S64x512 .f32)
                slices_S64x512_S64x256_0_0)
              transposes_S64x256_S256x64_1_0)
            bitsLt_bf16_f32)
          (sitofp (F := Ideal) .bf16 (constantI S_ 32 0#32)) pads_S256x64_S256x128_000_0640 h_S_ := by
    dsimp only [V1, W1, hostOps0]; after_results; rfl
  refine (congrFun e (ix2 h j)).trans ?_
  exact padT_apply 0 _ _ slices_S64x512_S64x256_0_0 h j hj ⟨h.val, by omega⟩ (Nat.zero_add _).symm

/-- Column j < 64 of the padded transposed second half: entry (h, j) is prototype j's entry 256 + h. -/
theorem pe_apply (c : Dev nD) (h : Fin 256) (j : Fin 128) (hj : j.val < 64) :
    (V1 m ρ c main_call0_v7 : Arr 256 128) (ix2 h j)
      = (m ((c : Thread nD τ).loc main_arg7) : Arr 64 512) (ix2 ⟨j.val, hj⟩ ⟨256 + h.val, by omega⟩) := by
  have e : (V1 m ρ c main_call0_v7 : S256x128.Idx → EReal)
      = pad S256x128 ![0, 0] ![0, 64] ![0, 0]
          (truncf (F := Ideal) .bf16
            (transpose S256x64 [1, 0]
              (extractStridedSlice S64x256 ![0, 256] (W0 m ρ c (Proc.devRef .tc main_arg7) : FVec Ideal S64x512 .f32)
                slices_S64x512_S64x256_0_256)
              transposes_S64x256_S256x64_1_0)
            bitsLt_bf16_f32)
          (sitofp (F := Ideal) .bf16 (constantI S_ 32 0#32)) pads_S256x64_S256x128_000_0640 h_S_ := by
    dsimp only [V1, W1, hostOps0]; after_results; rfl
  refine (congrFun e (ix2 h j)).trans ?_
  exact padT_apply 256 _ _ slices_S64x512_S64x256_0_256 h j hj ⟨256 + h.val, by omega⟩ rfl

/-- Entry j < 64 of the padded row of squared prototype norms. -/
theorem pn_apply (c : Dev nD) (j : Fin 128) (hj : j.val < 64) :
    (V1 m ρ c main_call0_v11 : Arr 1 128) (ix2 0 j)
      = pnorm (m ((c : Thread nD τ).loc main_arg7) : Arr 64 512) ⟨j.val, hj⟩ := by
  have e : (V1 m ρ c main_call0_v11 : S1x128.Idx → EReal)
      = pad S1x128 ![0, 0] ![0, 64] ![0, 0]
          (broadcastInDim S1x64 ![1] bcast_S64_S1x64_1
            (Host.reduceAdd (F := Ideal)
              (mulf (W0 m ρ c (Proc.devRef .tc main_arg7) : FVec Ideal S64x512 .f32)
                (W0 m ρ c (Proc.devRef .tc main_arg7) : FVec Ideal S64x512 .f32))
              (constant (F := Ideal) S_ .f32 0x00000000#32) reducesTo_S64x512_S64_d1 h_S_))
          (sitofp (F := Ideal) .f32 (constantI S_ 32 0#32)) pads_S1x64_S1x128_000_0640 h_S_ := by
    dsimp only [V1, W1, hostOps0]; after_results; rfl
  refine (congrFun e (ix2 0 j)).trans ?_
  exact padN_apply _ _ j hj

end Cert.KernelIdeal.HostVal

end
-- ==== Proof.KValue.lean ====
/-
  The first program's result as one function of its argument arrays.

  Its three launches hand arrays to one another: the first leaves X · W0 and the embedding part of the head, the second
  reads X · W0 and leaves relu(A · (X · W0) + b0) · W1, the third reads that and the embedding part and leaves the padded
  head; a final slice keeps the first 64 columns. What each launch finds in an array is what the launch before left
  there, or, for an array no launch has written, what the host operations before the first launch left: the argument
  itself, or the padded transposed prototype halves and norms.
-/
import proofs.«149869_g2000004181024809_pallasbulk_469_2_alg».proof.Proof.Gen.KernelIdeal.Frame
import proofs.«149869_g2000004181024809_pallasbulk_469_2_alg».proof.Proof.Spec
import proofs.«149869_g2000004181024809_pallasbulk_469_2_alg».proof.Proof.SpecAlg
import proofs.«149869_g2000004181024809_pallasbulk_469_2_alg».proof.Proof.KReg0
import proofs.«149869_g2000004181024809_pallasbulk_469_2_alg».proof.Proof.KReg1
import proofs.«149869_g2000004181024809_pallasbulk_469_2_alg».proof.Proof.KReg2
import proofs.«149869_g2000004181024809_pallasbulk_469_2_alg».proof.Proof.KHost
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Chain

open Cert.KernelIdeal Cert.KernelIdeal.Gen Cert.Spec

variable (m : (ℓ : Loc nD τ sig) → Buf (Elt Ideal) ℓ) (ρ : Dev nD → PrngReg)

/-- The argument arrays as launched. -/
abbrev aA (c : Dev nD) : Arr 4096 4096 := m ((c : Thread nD τ).loc main_arg0)
abbrev aX (c : Dev nD) : Arr 4096 128 := m ((c : Thread nD τ).loc main_arg1)
abbrev aW0 (c : Dev nD) : Arr 128 256 := m ((c : Thread nD τ).loc main_arg2)
abbrev ab0 (c : Dev nD) : Arr 1 256 := m ((c : Thread nD τ).loc main_arg3)
abbrev aW1 (c : Dev nD) : Arr 256 256 := m ((c : Thread nD τ).loc main_arg4)
abbrev ab1 (c : Dev nD) : Arr 1 256 := m ((c : Thread nD τ).loc main_arg5)
abbrev aE (c : Dev nD) : Arr 4096 256 := m ((c : Thread nD τ).loc main_arg6)
abbrev aP (c : Dev nD) : Arr 64 512 := m ((c : Thread nD τ).loc main_arg7)

/-- The padded transposed prototype halves and the padded norms, as the host operations leave them. -/
abbrev hPH (c : Dev nD) : Arr 256 128 := V1 m ρ c main_call0_v3
abbrev hPE (c : Dev nD) : Arr 256 128 := V1 m ρ c main_call0_v7
abbrev hPN (c : Dev nD) : Arr 1 128 := V1 m ρ c main_call0_v11

/-! ## What the second launch finds -/

theorem V2_A (c : Dev nD) : (V2 m ρ c main_arg0 : Arr 4096 4096) = aA m c :=
  (W2_of_ne m ρ c main_arg0 (by decide)).trans (HostVal.arg0 m ρ c)

theorem V2_b0 (c : Dev nD) : (V2 m ρ c main_arg3 : Arr 1 256) = ab0 m c :=
  (W2_of_ne m ρ c main_arg3 (by decide)).trans (HostVal.arg3 m ρ c)

theorem V2_b1 (c : Dev nD) : (V2 m ρ c main_arg5 : Arr 1 256) = ab1 m c :=
  (W2_of_ne m ρ c main_arg5 (by decide)).trans (HostVal.arg5 m ρ c)

theorem V2_W1 (c : Dev nD) : (V2 m ρ c main_call0_v13 : Arr 256 256) = aW1 m c :=
  (W2_of_ne m ρ c main_call0_v13 (by decide)).trans (HostVal.w1 m ρ c)

theorem V2_PH (c : Dev nD) : (V2 m ρ c main_call0_v3 : Arr 256 128) = hPH m ρ c :=
  W2_of_ne m ρ c main_call0_v3 (by decide)

/-- The first launch's first result: X · W0. -/
theorem V2_XW (c : Dev nD) : (V2 m ρ c main_call0_v14_0 : Arr 4096 256) = mm (aX m c) (aW0 m c) := by
  refine (W2_arr m ρ c 5).trans ?_
  rw [Reg0.arr5 (V1 m ρ) c, HostVal.arg1 m ρ c, HostVal.w0 m ρ c]

/-- The first launch's second result: the embedding part of the head. -/
theorem V2_K (c : Dev nD) :
    (V2 m ρ c main_call0_v14_1 : Arr 4096 128) = embTerm (aE m c) (hPE m ρ c) (hPN m ρ c) := by
  refine (W2_arr m ρ c 6).trans ?_
  rw [Reg0.arr6 (V1 m ρ) c, HostVal.arg6 m ρ c]

/-! ## What the third launch finds -/

theorem V3_A (c : Dev nD) : (V3 m ρ c main_arg0 : Arr 4096 4096) = aA m c :=
  ((W3_arr m ρ c 0).trans (((dat1 (V2 m ρ) c).arrAt_in 0 rfl _).trans (A_eq1 (V2 m ρ) c 0))).trans (V2_A m ρ c)

theorem V3_b1 (c : Dev nD) : (V3 m ρ c main_arg5 : Arr 1 256) = ab1 m c :=
  (W3_of_ne m ρ c main_arg5 (by decide)).trans (V2_b1 m ρ c)

theorem V3_PH (c : Dev nD) : (V3 m ρ c main_call0_v3 : Arr 256 128) = hPH m ρ c :=
  (W3_of_ne m ρ c main_call0_v3 (by decide)).trans (V2_PH m ρ c)

theorem V3_K (c : Dev nD) :
    (V3 m ρ c main_call0_v14_1 : Arr 4096 128) = embTerm (aE m c) (hPE m ρ c) (hPN m ρ c) :=
  (W3_of_ne m ρ c main_call0_v14_1 (by decide)).trans (V2_K m ρ c)

/-- The second launch's result: relu(A · (X · W0) + b0) · W1. -/
theorem V3_HW (c : Dev nD) :
    (V3 m ρ c main_call0_v15 : Arr 4096 256)
      = mm (relu (addRow (mm (aA m c) (mm (aX m c) (aW0 m c))) (ab0 m c))) (aW1 m c) := by
  refine (W3_arr m ρ c 4).trans ?_
  rw [Reg1.arr4 (V2 m ρ) c, V2_A m ρ c, V2_XW m ρ c, V2_b0 m ρ c, V2_W1 m ρ c]

/-! ## The padded head, and the slice -/

/-- The third launch's result: the head over the second layer, the embedding part added. -/
theorem padded (c : Dev nD) :
    (W4 m ρ c (Proc.devRef .tc main_call0_v16) : Arr 4096 128)
      = headK (hidden2 (aA m c) (aX m c) (aW0 m c) (ab0 m c) (aW1 m c) (ab1 m c)) (hPH m ρ c)
          (embTerm (aE m c) (hPE m ρ c) (hPN m ρ c)) := by
  refine (W4_arr m ρ c 5).trans ?_
  rw [Reg2.arr5 (V3 m ρ) c, V3_A m ρ c, V3_HW m ρ c, V3_b1 m ρ c, V3_PH m ρ c, V3_K m ρ c]
  rfl

/-- The result array: column j < 64 of the padded head. -/
theorem result (c : Dev nD) (n : Fin 4096) (j : Fin 64) :
    (W5 m ρ c (Proc.devRef .tc main_v0) : Arr 4096 64) (ix2 n j)
      = headK (hidden2 (aA m c) (aX m c) (aW0 m c) (ab0 m c) (aW1 m c) (ab1 m c)) (hPH m ρ c)
          (embTerm (aE m c) (hPE m ρ c) (hPN m ρ c)) (ix2 n ⟨j.val, by omega⟩) := by
  rw [← padded m ρ c]
  have e : (W5 m ρ c (Proc.devRef .tc main_v0) : Arr 4096 64)
      = extractStridedSlice S4096x64 ![0, 0] (W4 m ρ c (Proc.devRef .tc main_call0_v16) : Arr 4096 128)
          slices_S4096x128_S4096x64_0_0 := by
    show StableHlo.after hostOps3 (W4 m ρ c) (Proc.devRef .tc main_v0) = _
    after_results
    rfl
  rw [e]
  refine extractStridedSlice_apply _ _ _ _ _ fun a => ?_
  match a with
  | ⟨0, _⟩ => simp
  | ⟨1, _⟩ => simp

end Cert.KernelIdeal.Chain

end
-- ==== Proof.RReg0.lean ====
/-
  The reference's first launch, read as mathematics.

  The launch walks eight row blocks of 512 rows. At each it multiplies the adjacency's row block by the feature
  product X · W, adds the bias row and rectifies, and writes the result to the same row block of its result array.
  Each of these operations commutes with taking a row block, so the result array is relu (A · (X · W) + b) as a
  whole.
-/
import proofs.«149869_g2000004181024809_pallasbulk_469_2_alg».proof.Proof.Gen.ReferenceIdeal.Frame
import proofs.«149869_g2000004181024809_pallasbulk_469_2_alg».proof.Proof.Spec
import proofs.«149869_g2000004181024809_pallasbulk_469_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.ReferenceIdeal.Reg0
open Cert.ReferenceIdeal Cert.ReferenceIdeal.Gen Cert.Spec
variable (V : (c : Dev nD) → (b : Ref sig .tc) → Buf (Elt Ideal) ((c : Thread nD τ).loc b))

/-- The zero offsets of a whole-block access, as the constant function. -/
theorem zeroOff : (![0, 0] : Fin 2 → Nat) = fun _ => 0 := funext fun a => by fin_cases a <;> rfl

/-- The body stores its payload over the whole block, so the block it leaves is the payload of the loaded blocks. -/
theorem out_eq (x0 : Vec Ideal S512x4096 .f32) (x1 : Vec Ideal S4096x128 .f32) (x2 : Vec Ideal S128x256 .f32)
    (x3 : Vec Ideal S1x256 .f32) : out0_4 x0 x1 x2 x3 = k0_pay1 x1 x2 x0 x3 := by
  unfold out0_4
  rw [View.canon_unit_zero zeroOff]
  simp only [View.ld_unit_zero (S := S4096x128) zeroOff, View.ld_unit_zero (S := S128x256) zeroOff,
    View.ld_unit_zero (S := S512x4096) zeroOff, View.ld_unit_zero (S := S1x256) zeroOff]

theorem dotXW : dot_S4096x128_S128x256_S4096x256_1_0_0_1_n_n = DotDims.plain 4096 128 256 := rfl
theorem dotAH : dot_S512x4096_S4096x256_S512x256_1_0_0_1_n_n = DotDims.plain 512 4096 256 := rfl

/-- The feature product X · W, accumulated into zero. -/
theorem matmulXW (X : FVec Ideal S4096x128 .f32) (W : FVec Ideal S128x256 .f32) :
    matmul (F := Ideal) dot_S4096x128_S128x256_S4096x256_1_0_0_1_n_n none X W (constant S4096x256 .f32 0x00000000#32)
      = mm (X : Arr 4096 128) (W : Arr 128 256) := by
  funext j
  obtain ⟨p, q, rfl⟩ : ∃ (p : Fin 4096) (q : Fin 256), j = ix2 p q := ⟨j 0, j 1, eq_ix2 j⟩
  rw [dotXW, mm_apply]
  exact PlainDot.matmul_zero_apply 4096 128 256 none X W p q

/-- The aggregation A_blk · H of a row block, accumulated into zero. -/
theorem matmulAH (A : FVec Ideal S512x4096 .f32) (H : FVec Ideal S4096x256 .f32) :
    matmul (F := Ideal) dot_S512x4096_S4096x256_S512x256_1_0_0_1_n_n none A H (constant S512x256 .f32 0x00000000#32)
      = mm (A : Arr 512 4096) (H : Arr 4096 256) := by
  funext j
  obtain ⟨p, q, rfl⟩ : ∃ (p : Fin 512) (q : Fin 256), j = ix2 p q := ⟨j 0, j 1, eq_ix2 j⟩
  rw [dotAH, mm_apply]
  exact PlainDot.matmul_zero_apply 512 4096 256 none A H p q

/-- The payload is the rectified layer of its blocks: relu (A_blk · (X · W) + b). -/
theorem pay_eq (X : FVec Ideal S4096x128 .f32) (W : FVec Ideal S128x256 .f32) (A : FVec Ideal S512x4096 .f32)
    (b : FVec Ideal S1x256 .f32) :
    k0_pay1 (F := Ideal) X W A b
      = relu (addRow (mm (A : Arr 512 4096) (mm (X : Arr 4096 128) (W : Arr 128 256))) (b : Arr 1 256)) := by
  funext j
  obtain ⟨p, q, rfl⟩ : ∃ (p : Fin 512) (q : Fin 256), j = ix2 p q := ⟨j 0, j 1, eq_ix2 j⟩
  unfold k0_pay1
  show max (matmul (F := Ideal) dot_S512x4096_S4096x256_S512x256_1_0_0_1_n_n none A
        (matmul (F := Ideal) dot_S4096x128_S128x256_S4096x256_1_0_0_1_n_n none X W (constant S4096x256 .f32 0x00000000#32))
        (constant S512x256 .f32 0x00000000#32) (ix2 p q)
      + broadcastTo S512x256 b broadcasts_S1x256_S512x256 (ix2 p q)) (Ideal.ofBits .f32 0x00000000#32) = _
  rw [matmulXW, matmulAH, broadcastTo_1b_ab_apply, Ideal.ofBits_zero_f32]
  rfl

/-- The grid has eight points. -/
theorem lt8 (t : Fin cfg0.N) : t.val < 8 := lt_of_lt_of_eq t.isLt N_0

/-- The windows' index maps, decided over the grid: the adjacency window and the result window move down one row
    block per point; the features, the weights and the bias stay whole. -/
theorem idx_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0)

/-- Rows 512·t … 512·t + 511 of an array of 4096 rows. -/
def rowBlk {n : Nat} (X : Arr 4096 n) (t : Nat) (ht : t < 8) : Arr 512 n :=
  fun i => X (ix2 (⟨512 * t + (i 0).val, by have := idx2_lt0 i; omega⟩ : Fin 4096) (col i))

theorem rowBlk_apply {n : Nat} (X : Arr 4096 n) (t : Nat) (ht : t < 8) (p : Fin 512) (q : Fin n) :
    rowBlk X t ht (ix2 p q) = X (ix2 (⟨512 * t + p.val, by omega⟩ : Fin 4096) q) := rfl

/-- The product of a row block of A with B is the row block of A · B. -/
theorem mm_rowBlk {k n : Nat} (A : Arr 4096 k) (B : Arr k n) (t : Nat) (ht : t < 8) :
    mm (rowBlk A t ht) B = rowBlk (mm A B) t ht := rfl

/-- Adding a bias row commutes with taking a row block. -/
theorem addRow_rowBlk {n : Nat} (X : Arr 4096 n) (b : Arr 1 n) (t : Nat) (ht : t < 8) :
    addRow (rowBlk X t ht) b = rowBlk (addRow X b) t ht := rfl

/-- The rectifier commutes with taking a row block. -/
theorem relu_rowBlk {n : Nat} (X : Arr 4096 n) (t : Nat) (ht : t < 8) :
    relu (rowBlk X t ht) = rowBlk (relu X) t ht := rfl

/-- The adjacency window's block at point t is row block t of the adjacency array. -/
theorem blk0 (c : Dev nD) (t : Fin cfg0.N) :
    (iblk0 (F := Ideal) V c 0 t : Arr 512 4096) = rowBlk (V c main_arg0 : Arr 4096 4096) t.val (lt8 t) := by
  funext y
  obtain ⟨p, q, rfl⟩ : ∃ (p : Fin 512) (q : Fin 4096), y = ix2 p q := ⟨y 0, y 1, eq_ix2 y⟩
  obtain ⟨e0, e1, -⟩ := idx_rows t
  rw [rowBlk_apply]
  unfold iblk0
  rw [View.read_apply]
  refine congrArg (V c main_arg0 : Arr 4096 4096) (funext fun a => Fin.ext ?_)
  match a with
  | ⟨0, _⟩ => show win0_0.index t (0 : Fin 2) * 512 + 1 * p.val = 512 * t.val + p.val; omega
  | ⟨1, _⟩ => show win0_0.index t (1 : Fin 2) * 4096 + 1 * q.val = q.val; omega

/-- The feature window's block is the whole feature array. -/
theorem blk1 (c : Dev nD) (t : Fin cfg0.N) :
    (iblk0 (F := Ideal) V c 1 t : Arr 4096 128) = (V c main_arg1 : Arr 4096 128) := by
  funext y
  obtain ⟨p, q, rfl⟩ : ∃ (p : Fin 4096) (q : Fin 128), y = ix2 p q := ⟨y 0, y 1, eq_ix2 y⟩
  obtain ⟨-, -, e0, e1, -⟩ := idx_rows t
  unfold iblk0
  rw [View.read_apply]
  refine congrArg (V c main_arg1 : Arr 4096 128) (funext fun a => Fin.ext ?_)
  match a with
  | ⟨0, _⟩ => show win0_1.index t (0 : Fin 2) * 4096 + 1 * p.val = p.val; omega
  | ⟨1, _⟩ => show win0_1.index t (1 : Fin 2) * 128 + 1 * q.val = q.val; omega

/-- The weight window's block is the whole weight array. -/
theorem blk2 (c : Dev nD) (t : Fin cfg0.N) :
    (iblk0 (F := Ideal) V c 2 t : Arr 128 256) = (V c main_arg2 : Arr 128 256) := by
  funext y
  obtain ⟨p, q, rfl⟩ : ∃ (p : Fin 128) (q : Fin 256), y = ix2 p q := ⟨y 0, y 1, eq_ix2 y⟩
  obtain ⟨-, -, -, -, e0, e1, -⟩ := idx_rows t
  unfold iblk0
  rw [View.read_apply]
  refine congrArg (V c main_arg2 : Arr 128 256) (funext fun a => Fin.ext ?_)
  match a with
  | ⟨0, _⟩ => show win0_2.index t (0 : Fin 2) * 128 + 1 * p.val = p.val; omega
  | ⟨1, _⟩ => show win0_2.index t (1 : Fin 2) * 256 + 1 * q.val = q.val; omega

/-- The bias window's block is the whole bias row. -/
theorem blk3 (c : Dev nD) (t : Fin cfg0.N) :
    (iblk0 (F := Ideal) V c 3 t : Arr 1 256) = (V c main_arg3 : Arr 1 256) := by
  funext y
  obtain ⟨p, q, rfl⟩ : ∃ (p : Fin 1) (q : Fin 256), y = ix2 p q := ⟨y 0, y 1, eq_ix2 y⟩
  obtain ⟨-, -, -, -, -, -, e0, e1, -⟩ := idx_rows t
  unfold iblk0
  rw [View.read_apply]
  refine congrArg (V c main_arg3 : Arr 1 256) (funext fun a => Fin.ext ?_)
  match a with
  | ⟨0, _⟩ => show win0_3.index t (0 : Fin 2) * 1 + 1 * p.val = p.val; omega
  | ⟨1, _⟩ => show win0_3.index t (1 : Fin 2) * 256 + 1 * q.val = q.val; omega

/-- The result window's block at point t, read off any array, is row block t of that array. -/
theorem read4 (G : Arr 4096 256) (t : Fin cfg0.N) :
    (((cfg0.win 4).blk t).view.read (Elt Ideal) G : Arr 512 256) = rowBlk G t.val (lt8 t) := by
  funext y
  obtain ⟨p, q, rfl⟩ : ∃ (p : Fin 512) (q : Fin 256), y = ix2 p q := ⟨y 0, y 1, eq_ix2 y⟩
  obtain ⟨-, -, -, -, -, -, -, -, e0, e1⟩ := idx_rows t
  rw [rowBlk_apply, View.read_apply]
  refine congrArg G (funext fun a => Fin.ext ?_)
  match a with
  | ⟨0, _⟩ => show win0_4.index t (0 : Fin 2) * 512 + 1 * p.val = 512 * t.val + p.val; omega
  | ⟨1, _⟩ => show win0_4.index t (1 : Fin 2) * 256 + 1 * q.val = q.val; omega

/-- The rectified first layer over whole arrays: relu (A · (X · W) + b). -/
def layer0 (A : Arr 4096 4096) (X : Arr 4096 128) (W : Arr 128 256) (b : Arr 1 256) : Arr 4096 256 :=
  relu (addRow (mm A (mm X W)) b)

/-- What point t writes back is row block t of the rectified first layer of the arrays as the launch finds them:
    the body computes the layer of the adjacency's row block, and each operation commutes with taking a row block. -/
theorem flushed_eq (c : Dev nD) (t : Fin cfg0.N) :
    (dat0 (F := Ideal) V c).flushed 4 t
      = ((cfg0.win 4).blk t).view.read (Elt Ideal)
          (layer0 (V c main_arg0 : Arr 4096 4096) (V c main_arg1 : Arr 4096 128) (V c main_arg2 : Arr 128 256)
            (V c main_arg3 : Arr 1 256)) := by
  show (cfg0.win 4).cut (grid0.coords t) ((dat0 (F := Ideal) V c).after 4 t) = _
  rw [after0_4, out_eq, pay_eq, read4]
  rw [blk0 V c t, blk1 V c t, blk2 V c t, blk3 V c t, mm_rowBlk, addRow_rowBlk, relu_rowBlk]
  rfl

/-- An index of the result array is in point t's block iff each coordinate is in the block's range on its axis. -/
theorem mem_blk (t : Fin cfg0.N) (i : S4096x256.Idx) :
    i ∈ ((cfg0.win 4).blk t).view.set
      ↔ ∀ a : Fin 2, win0_4.index t a * S512x256.size a ≤ (i a).val
          ∧ (i a).val < win0_4.index t a * S512x256.size a + S512x256.size a := by
  show i ∈ ((View.whole main_call0_v0).slice (win0_4.rect t)).set ↔ _
  rw [View.set_slice_whole, Rect.mem_set_unit]
  exact Iff.rfl

/-- Every index of the result array lies in the block of the point its row selects: row r in block r / 512. -/
theorem cover (i : S4096x256.Idx) :
    ∃ t : Fin cfg0.N, (cfg0.win 4).flush t = true ∧ i ∈ ((cfg0.win 4).blk t).view.set := by
  have hi0 : (i 0).val < 4096 := idx2_lt0 i
  have hi1 : (i 1).val < 256 := idx2_lt1 i
  obtain ⟨t, ht⟩ : ∃ t : Fin cfg0.N, t.val = (i 0).val / 512 :=
    ⟨⟨(i 0).val / 512, lt_of_lt_of_eq (by omega) N_0.symm⟩, rfl⟩
  obtain ⟨-, -, -, -, -, -, -, -, e0, e1⟩ := idx_rows t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 256 ≤ (i 1).val ∧ (i 1).val < win0_4.index t (1 : Fin 2) * 256 + 256
    omega

/-- After the first launch its result array is the rectified first layer. -/
theorem arr4 (c : Dev nD) :
    ((dat0 (F := Ideal) V c).arrAt 4 cfg0.N : Arr 4096 256)
      = relu (addRow (mm (V c main_arg0 : Arr 4096 4096) (mm (V c main_arg1 : Arr 4096 128) (V c main_arg2 : Arr 128 256)))
          (V c main_arg3 : Arr 1 256)) :=
  (dat0 (F := Ideal) V c).arrAt_eq_of_cover 4
    (layer0 (V c main_arg0 : Arr 4096 4096) (V c main_arg1 : Arr 4096 128) (V c main_arg2 : Arr 128 256)
      (V c main_arg3 : Arr 1 256))
    (fun t _ => flushed_eq V c t) cover

end Cert.ReferenceIdeal.Reg0

end
-- ==== Proof.RReg1.lean ====
import proofs.«149869_g2000004181024809_pallasbulk_469_2_alg».proof.Proof.Gen.ReferenceIdeal.Frame
import proofs.«149869_g2000004181024809_pallasbulk_469_2_alg».proof.Proof.Spec
import proofs.«149869_g2000004181024809_pallasbulk_469_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.ReferenceIdeal.Reg1
open Cert.ReferenceIdeal Cert.ReferenceIdeal.Gen Cert.Spec
variable (V : (c : Dev nD) → (b : Ref sig .tc) → Buf (Elt Ideal) ((c : Thread nD τ).loc b))

/-! ## The operations of the body, read as the mathematics' functions -/

section Operations
variable {α : Type}

/-- A product into the zero matrix is the matrix product. -/
theorem matmul_plain_eq {M K N : Nat} (L : Arr M K) (R : Arr K N) :
    matmul (F := Ideal) (φ₁ := .f32) (φ₂ := .f32) (DotDims.plain M K N) none L R
        (constant (⟨2, ![M, N]⟩ : Shape) .f32 0x00000000#32) = mm L R := by
  funext j
  obtain ⟨p, q, rfl⟩ : ∃ (p : Fin M) (q : Fin N), j = ix2 p q := ⟨j 0, j 1, eq_ix2 j⟩
  exact PlainDot.matmul_zero_apply M K N none L R p q

/-- The sum of a matrix along its rows' entries, read at row `p`. -/
theorem laneSum_apply {a b : Nat} (x : FVec Ideal (⟨2, ![a, b]⟩ : Shape) .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ x acc h hφ hacc (ix1 p) = ∑ k : Fin b, x (ix2 p k) :=
  (Ideal.multiReduction_add_single x acc h hφ hacc (ix1 p)).trans
    (Finset.sum_congr rfl fun k _ => congrArg x (funext fun d => Fin.ext (by
      match d with
      | ⟨0, _⟩ => rfl
      | ⟨1, _⟩ => rfl)))

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Operations

/-! ## The body's payload is the head of the blocks -/

section Payload
variable (x1 : FVec Ideal S4096x256 .f32) (x2 : FVec Ideal S256x256 .f32) (x0 : FVec Ideal S512x4096 .f32)
  (x3 : FVec Ideal S1x256 .f32) (x4 : FVec Ideal S512x256 .f32) (x5 x6 : FVec Ideal S256x128 .f32) (x7 : FVec Ideal S1x128 .f32)

/-- The first layer's output times the second weight matrix. -/
theorem pay_hw :
    matmul dot_S4096x256_S256x256_S4096x256_1_0_0_1_n_n none (shapeCast S4096x256 x1 shapeCasts_S4096x256_S4096x256) x2
        (constant S4096x256 .f32 0x00000000#32) = mm (x1 : Arr 4096 256) (x2 : Arr 256 256) := by
  rw [shapeCast_self]
  exact matmul_plain_eq (M := 4096) (K := 256) (N := 256) x1 x2

/-- The second layer on a row block of the adjacency matrix: the product with it, plus the bias row. -/
theorem pay_h2 (y : FVec Ideal S4096x256 .f32) :
    addf (matmul dot_S512x4096_S4096x256_S512x256_1_0_0_1_n_n none x0 y (constant S512x256 .f32 0x00000000#32))
        (broadcastTo S512x256 x3 broadcasts_S1x256_S512x256)
      = addRow (mm (x0 : Arr 512 4096) (y : Arr 4096 256)) (x3 : Arr 1 256) := by
  funext j
  obtain ⟨p, q, rfl⟩ : ∃ (p : Fin 512) (q : Fin 256), j = ix2 p q := ⟨j 0, j 1, eq_ix2 j⟩
  rw [addRow_apply, addf_apply, broadcastTo_1b_ab_apply]
  exact congrArg (· + x3 (ix2 (0 : Fin 1) q)) (congrFun (matmul_plain_eq (M := 512) (K := 4096) (N := 256) x0 y) (ix2 p q))

/-- The head, from the second layer's block `h2` and the embedding's block `e`. -/
theorem pay_head (h2 e : FVec Ideal S512x256 .f32) :
    subf (subf (mulf (broadcast S512x128 (Scalar.ofBits (F := Ideal) .f32 0x40000000#32))
            (addf (matmul dot_S512x256_S256x128_S512x128_1_0_0_1_n_n none h2 (shapeCast S256x128 x5 shapeCasts_S256x128_S256x128) (constant S512x128 .f32 0x00000000#32))
                  (matmul dot_S512x256_S256x128_S512x128_1_0_0_1_n_n none e (shapeCast S256x128 x6 shapeCasts_S256x128_S256x128) (constant S512x128 .f32 0x00000000#32))))
          (broadcastTo S512x128
            (addf (shapeCast S512x1 (multiReduction .add [1] S512 (mulf h2 h2) 0x00000000#32 reduces_S512x256_S512 (.inl rfl) rfl) shapeCasts_S512_S512x1)
                  (shapeCast S512x1 (multiReduction .add [1] S512 (mulf e e) 0x00000000#32 reduces_S512x256_S512 (.inl rfl) rfl) shapeCasts_S512_S512x1))
            broadcasts_S512x1_S512x128))
        (broadcastTo S512x128 (shapeCast S1x128 x7 shapeCasts_S1x128_S1x128) broadcasts_S1x128_S512x128)
      = headR (h2 : Arr 512 256) (e : Arr 512 256) (x5 : Arr 256 128) (x6 : Arr 256 128) (x7 : Arr 1 128) := by
  funext j
  obtain ⟨p, q, rfl⟩ : ∃ (p : Fin 512) (q : Fin 128), j = ix2 p q := ⟨j 0, j 1, eq_ix2 j⟩
  rw [headR_apply, shapeCast_self, shapeCast_self, shapeCast_self, subf_apply, subf_apply, mulf_apply, addf_apply, broadcast_apply,
    broadcastTo_1b_ab_apply, broadcastTo_a1_ab_apply, addf_apply, shapeCast_a_a1_apply, shapeCast_a_a1_apply]
  have m1 : matmul dot_S512x256_S256x128_S512x128_1_0_0_1_n_n none h2 x5 (constant S512x128 .f32 0x00000000#32) (ix2 p q)
      = mm (h2 : Arr 512 256) (x5 : Arr 256 128) (ix2 p q) :=
    congrFun (matmul_plain_eq (M := 512) (K := 256) (N := 128) h2 x5) (ix2 p q)
  have m2 : matmul dot_S512x256_S256x128_S512x128_1_0_0_1_n_n none e x6 (constant S512x128 .f32 0x00000000#32) (ix2 p q)
      = mm (e : Arr 512 256) (x6 : Arr 256 128) (ix2 p q) :=
    congrFun (matmul_plain_eq (M := 512) (K := 256) (N := 128) e x6) (ix2 p q)
  have s1 : multiReduction .add [1] S512 (mulf h2 h2) 0x00000000#32 reduces_S512x256_S512 (.inl rfl) rfl (ix1 p)
      = rowSq (h2 : Arr 512 256) p :=
    laneSum_apply (a := 512) (b := 256) (mulf h2 h2) _ reduces_S512x256_S512 _ _ p
  have s2 : multiReduction .add [1] S512 (mulf e e) 0x00000000#32 reduces_S512x256_S512 (.inl rfl) rfl (ix1 p)
      = rowSq (e : Arr 512 256) p :=
    laneSum_apply (a := 512) (b := 256) (mulf e e) _ reduces_S512x256_S512 _ _ p
  exact congrArg₂ (· - ·) (congrArg₂ (· - ·) (congrArg₂ (· * ·) rfl (congrArg₂ (· + ·) m1 m2)) (congrArg₂ (· + ·) s1 s2)) rfl

/-- THE PAYLOAD: the head over the second layer of the adjacency block and the embedding block. -/
theorem pay_eq : k1_pay1 (F := Ideal) x1 x2 x0 x3 x4 x5 x6 x7
    = headR (addRow (mm (x0 : Arr 512 4096) (mm (x1 : Arr 4096 256) (x2 : Arr 256 256))) (x3 : Arr 1 256))
        (x4 : Arr 512 256) (x5 : Arr 256 128) (x6 : Arr 256 128) (x7 : Arr 1 128) := by
  unfold k1_pay1
  dsimp only
  rw [pay_hw, pay_h2]
  exact pay_head x5 x6 x7 _ x4

end Payload

/-! ## Row blocks: the mathematics' functions commute with taking a block of rows -/

section RowBlocks
variable {M K N : Nat}

/-- Rows `R·t, …, R·t + R − 1` of an array, as an array of `R` rows. -/
def rowBlk (R t : Nat) (h : R * t + R ≤ M) (X : Arr M N) : Arr R N :=
  fun i => X (ix2 ⟨R * t + (i 0).val, by have := idx2_lt0 i; omega⟩ (col i))

theorem rowBlk_apply (R t : Nat) (h : R * t + R ≤ M) (X : Arr M N) (p : Fin R) (j : Fin N) :
    rowBlk R t h X (ix2 p j) = X (ix2 ⟨R * t + p.val, by have := p.isLt; omega⟩ j) := rfl

/-- A block of rows of a product is the product of the block of rows. -/
theorem mm_rowBlk (R t : Nat) (h : R * t + R ≤ M) (A : Arr M K) (B : Arr K N) :
    mm (rowBlk R t h A) B = rowBlk R t h (mm A B) := rfl

/-- Adding a bias row commutes with taking a block of rows. -/
theorem addRow_rowBlk (R t : Nat) (h : R * t + R ≤ M) (X : Arr M N) (b : Arr 1 N) :
    addRow (rowBlk R t h X) b = rowBlk R t h (addRow X b) := rfl

/-- The squared norm of a row of a block is that of the array's row. -/
theorem rowSq_rowBlk (R t : Nat) (h : R * t + R ≤ M) (X : Arr M N) (p : Fin R) :
    rowSq (rowBlk R t h X) p = rowSq X ⟨R * t + p.val, by have := p.isLt; omega⟩ := rfl

/-- The head of two blocks of rows is the block of rows of the head. -/
theorem headR_rowBlk (R t : Nat) (h : R * t + R ≤ M) (H2 E : Arr M K) (PH PE : Arr K N) (PN : Arr 1 N) :
    headR (rowBlk R t h H2) (rowBlk R t h E) PH PE PN = rowBlk R t h (headR H2 E PH PE PN) := rfl

end RowBlocks

/-! ## Each window's block, read off its array -/

section Blocks

/-- The grid has eight points. -/
theorem t_lt (t : Fin cfg1.N) : t.val < 8 := lt_of_lt_of_eq t.isLt N_1

theorem blk_le (t : Fin cfg1.N) : 512 * t.val + 512 ≤ 4096 := by have := t_lt t; omega

/-- The printed index maps, decided over the grid: the three row-tiled windows sit at block row `t`, the resident ones at
    block zero. -/
theorem block_index : ∀ t : Fin cfg1.N,
    (win1_0.index t (0 : Fin 2) = t.val ∧ win1_0.index t (1 : Fin 2) = 0)
    ∧ (win1_4.index t (0 : Fin 2) = t.val ∧ win1_4.index t (1 : Fin 2) = 0)
    ∧ (win1_8.index t (0 : Fin 2) = t.val ∧ win1_8.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- The adjacency window's block at point `t` is rows `512·t …` of the adjacency matrix. -/
theorem iblk_0 (c : Dev nD) (t : Fin cfg1.N) :
    (iblk1 V c 0 t : Arr 512 4096) = rowBlk 512 t.val (blk_le t) (V c main_arg0 : Arr 4096 4096) := by
  obtain ⟨⟨e0, e1⟩, -⟩ := block_index t
  funext j
  obtain ⟨p, q, rfl⟩ : ∃ (p : Fin 512) (q : Fin 4096), j = ix2 p q := ⟨j 0, j 1, eq_ix2 j⟩
  show V c main_arg0 (((cfg1.win 0).blk t).view.emb (ix2 p q)) = V c main_arg0 (ix2 ⟨512 * t.val + p.val, _⟩ q)
  refine congrArg _ (funext fun a => Fin.ext ?_)
  match a with
  | ⟨0, _⟩ => show win1_0.index t (0 : Fin 2) * 512 + 1 * p.val = 512 * t.val + p.val; omega
  | ⟨1, _⟩ => show win1_0.index t (1 : Fin 2) * 4096 + 1 * q.val = q.val; omega

/-- The first layer's window is resident: its block is the whole array. -/
theorem iblk_1 (c : Dev nD) (t : Fin cfg1.N) : (iblk1 V c 1 t : Arr 4096 256) = (V c main_call0_v0 : Arr 4096 256) := by
  obtain ⟨-, -, -, ⟨e0, e1⟩, -⟩ := block_index t
  funext j
  show V c main_call0_v0 (((cfg1.win 1).blk t).view.emb j) = V c main_call0_v0 j
  refine congrArg _ (funext fun a => Fin.ext ?_)
  match a with
  | ⟨0, _⟩ => show win1_1.index t (0 : Fin 2) * 4096 + 1 * (j 0).val = (j 0).val; omega
  | ⟨1, _⟩ => show win1_1.index t (1 : Fin 2) * 256 + 1 * (j 1).val = (j 1).val; omega

/-- The second weight matrix's window is resident. -/
theorem iblk_2 (c : Dev nD) (t : Fin cfg1.N) : (iblk1 V c 2 t : Arr 256 256) = (V c main_arg4 : Arr 256 256) := by
  obtain ⟨-, -, -, -, ⟨e0, e1⟩, -⟩ := block_index t
  funext j
  show V c main_arg4 (((cfg1.win 2).blk t).view.emb j) = V c main_arg4 j
  refine congrArg _ (funext fun a => Fin.ext ?_)
  match a with
  | ⟨0, _⟩ => show win1_2.index t (0 : Fin 2) * 256 + 1 * (j 0).val = (j 0).val; omega
  | ⟨1, _⟩ => show win1_2.index t (1 : Fin 2) * 256 + 1 * (j 1).val = (j 1).val; omega

/-- The second bias row's window is resident. -/
theorem iblk_3 (c : Dev nD) (t : Fin cfg1.N) : (iblk1 V c 3 t : Arr 1 256) = (V c main_arg5 : Arr 1 256) := by
  obtain ⟨-, -, -, -, -, ⟨e0, e1⟩, -⟩ := block_index t
  funext j
  show V c main_arg5 (((cfg1.win 3).blk t).view.emb j) = V c main_arg5 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 256 + 1 * (j 1).val = (j 1).val; omega

/-- The embedding window's block at point `t` is rows `512·t …` of the embedding. -/
theorem iblk_4 (c : Dev nD) (t : Fin cfg1.N) :
    (iblk1 V c 4 t : Arr 512 256) = rowBlk 512 t.val (blk_le t) (V c main_arg6 : Arr 4096 256) := by
  obtain ⟨-, ⟨e0, e1⟩, -⟩ := block_index t
  funext j
  obtain ⟨p, q, rfl⟩ : ∃ (p : Fin 512) (q : Fin 256), j = ix2 p q := ⟨j 0, j 1, eq_ix2 j⟩
  show V c main_arg6 (((cfg1.win 4).blk t).view.emb (ix2 p q)) = V c main_arg6 (ix2 ⟨512 * t.val + p.val, _⟩ q)
  refine congrArg _ (funext fun a => Fin.ext ?_)
  match a with
  | ⟨0, _⟩ => show win1_4.index t (0 : Fin 2) * 512 + 1 * p.val = 512 * t.val + p.val; omega
  | ⟨1, _⟩ => show win1_4.index t (1 : Fin 2) * 256 + 1 * q.val = q.val; omega

/-- The hidden half of the prototypes is resident. -/
theorem iblk_5 (c : Dev nD) (t : Fin cfg1.N) : (iblk1 V c 5 t : Arr 256 128) = (V c main_call0_v5 : Arr 256 128) := by
  obtain ⟨-, -, -, -, -, -, ⟨e0, e1⟩, -⟩ := block_index t
  funext j
  show V c main_call0_v5 (((cfg1.win 5).blk t).view.emb j) = V c main_call0_v5 j
  refine congrArg _ (funext fun a => Fin.ext ?_)
  match a with
  | ⟨0, _⟩ => show win1_5.index t (0 : Fin 2) * 256 + 1 * (j 0).val = (j 0).val; omega
  | ⟨1, _⟩ => show win1_5.index t (1 : Fin 2) * 128 + 1 * (j 1).val = (j 1).val; omega

/-- The embedding half of the prototypes is resident. -/
theorem iblk_6 (c : Dev nD) (t : Fin cfg1.N) : (iblk1 V c 6 t : Arr 256 128) = (V c main_call0_v10 : Arr 256 128) := by
  obtain ⟨-, -, -, -, -, -, -, ⟨e0, e1⟩, -⟩ := block_index t
  funext j
  show V c main_call0_v10 (((cfg1.win 6).blk t).view.emb j) = V c main_call0_v10 j
  refine congrArg _ (funext fun a => Fin.ext ?_)
  match a with
  | ⟨0, _⟩ => show win1_6.index t (0 : Fin 2) * 256 + 1 * (j 0).val = (j 0).val; omega
  | ⟨1, _⟩ => show win1_6.index t (1 : Fin 2) * 128 + 1 * (j 1).val = (j 1).val; omega

/-- The prototypes' squared norms are resident. -/
theorem iblk_7 (c : Dev nD) (t : Fin cfg1.N) : (iblk1 V c 7 t : Arr 1 128) = (V c main_call0_v17 : Arr 1 128) := by
  obtain ⟨-, -, -, -, -, -, -, -, e0, e1⟩ := block_index t
  funext j
  show V c main_call0_v17 (((cfg1.win 7).blk t).view.emb j) = V c main_call0_v17 j
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 128 + 1 * (j 1).val = (j 1).val; omega

/-- The result window's block at point `t`, read off any array, is its rows `512·t …`. -/
theorem oblk_8 (c : Dev nD) (t : Fin cfg1.N) (X : Arr 4096 128) :
    (((cfg1.win 8).blk t).view.read (Elt Ideal) X : Arr 512 128) = rowBlk 512 t.val (blk_le t) X := by
  obtain ⟨-, -, ⟨e0, e1⟩, -⟩ := block_index t
  funext j
  obtain ⟨p, q, rfl⟩ : ∃ (p : Fin 512) (q : Fin 128), j = ix2 p q := ⟨j 0, j 1, eq_ix2 j⟩
  show X (((cfg1.win 8).blk t).view.emb (ix2 p q)) = X (ix2 ⟨512 * t.val + p.val, _⟩ q)
  refine congrArg _ (funext fun a => Fin.ext ?_)
  match a with
  | ⟨0, _⟩ => show win1_8.index t (0 : Fin 2) * 512 + 1 * p.val = 512 * t.val + p.val; omega
  | ⟨1, _⟩ => show win1_8.index t (1 : Fin 2) * 128 + 1 * q.val = q.val; omega

end Blocks

/-! ## The result array -/

section Result

/-- The zero offset, as a constant function. -/
theorem origin_eq : (![0, 0] : Fin 2 → Nat) = fun _ => 0 := funext fun a => by fin_cases a <;> rfl

/-- What the body leaves in the result window's buffer is the head of the input blocks. -/
theorem out_eq (x0 : FVec Ideal S512x4096 .f32) (x1 : FVec Ideal S4096x256 .f32) (x2 : FVec Ideal S256x256 .f32)
    (x3 : FVec Ideal S1x256 .f32) (x4 : FVec Ideal S512x256 .f32) (x5 x6 : FVec Ideal S256x128 .f32) (x7 : FVec Ideal S1x128 .f32) :
    out1_8 (F := Ideal) x0 x1 x2 x3 x4 x5 x6 x7
      = headR (addRow (mm (x0 : Arr 512 4096) (mm (x1 : Arr 4096 256) (x2 : Arr 256 256))) (x3 : Arr 1 256))
          (x4 : Arr 512 256) (x5 : Arr 256 128) (x6 : Arr 256 128) (x7 : Arr 1 128) := by
  unfold out1_8
  rw [View.canon_unit_zero origin_eq]
  simp only [View.ld_unit_zero (S := S4096x256) origin_eq, View.ld_unit_zero (S := S256x256) origin_eq, View.ld_unit_zero (S := S512x4096) origin_eq,
    View.ld_unit_zero (S := S1x256) origin_eq, View.ld_unit_zero (S := S512x256) origin_eq, View.ld_unit_zero (S := S256x128) origin_eq,
    View.ld_unit_zero (S := S1x128) origin_eq]
  exact pay_eq x1 x2 x0 x3 x4 x5 x6 x7

/-- The array the launch leaves: the head over the second layer and the embedding. -/
abbrev G (c : Dev nD) : Arr 4096 128 :=
  headR (addRow (mm (V c main_arg0 : Arr 4096 4096) (mm (V c main_call0_v0 : Arr 4096 256) (V c main_arg4 : Arr 256 256)))
      (V c main_arg5 : Arr 1 256))
    (V c main_arg6 : Arr 4096 256) (V c main_call0_v5 : Arr 256 128) (V c main_call0_v10 : Arr 256 128)
    (V c main_call0_v17 : Arr 1 128)

/-- WHAT POINT `t` WRITES BACK is block `t` of that array. -/
theorem writes_back (c : Dev nD) (t : Fin cfg1.N) :
    (dat1 (F := Ideal) V c).flushed 8 t = ((cfg1.win 8).blk t).view.read (Elt Ideal) (G V c) := by
  show (cfg1.win 8).cut (grid1.coords t) ((dat1 V c).after 8 t) = _
  rw [after1_8, out_eq, iblk_0, iblk_1, iblk_2, iblk_3, iblk_4, iblk_5, iblk_6, iblk_7, mm_rowBlk, addRow_rowBlk, headR_rowBlk]
  exact (oblk_8 c t (G V c)).symm

/-- An index of the array is in point `t`'s block iff each coordinate is in the block's range on its axis. -/
theorem mem_block (t : Fin cfg1.N) (i : S4096x128.Idx) :
    i ∈ ((cfg1.win 8).blk t).view.set ↔ ∀ a : Fin 2, win1_8.index t a * S512x128.size a ≤ (i a).val
      ∧ (i a).val < win1_8.index t a * S512x128.size a + S512x128.size a := by
  show i ∈ ((View.whole main_call0_v18).slice (win1_8.rect t)).set ↔ _
  rw [View.set_slice_whole, Rect.mem_set_unit]
  exact Iff.rfl

/-- Every row lies in the block of the point its number divided by 512 names, and every point writes back. -/
theorem rows_covered (i : S4096x128.Idx) :
    ∃ t : Fin cfg1.N, (cfg1.win 8).flush t = true ∧ i ∈ ((cfg1.win 8).blk t).view.set := by
  have hi0 : (i 0).val < 4096 := (i 0).isLt
  have hi1 : (i 1).val < 128 := (i 1).isLt
  have ht : (i 0).val / 512 < cfg1.N := lt_of_lt_of_eq (by omega : (i 0).val / 512 < 8) N_1.symm
  obtain ⟨-, -, ⟨e0, e1⟩, -⟩ := block_index ⟨(i 0).val / 512, ht⟩
  refine ⟨⟨(i 0).val / 512, ht⟩, flush1_8 _, ?_⟩
  rw [mem_block]
  intro a
  match a with
  | ⟨0, _⟩ =>
    show win1_8.index ⟨(i 0).val / 512, ht⟩ (0 : Fin 2) * 512 ≤ (i 0).val
      ∧ (i 0).val < win1_8.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_8.index ⟨(i 0).val / 512, ht⟩ (1 : Fin 2) * 128 ≤ (i 1).val
      ∧ (i 1).val < win1_8.index ⟨(i 0).val / 512, ht⟩ (1 : Fin 2) * 128 + 128
    rw [e1]; omega

end Result

/-- After the second launch its result array is the head over the second layer and the embedding, side by side. -/
theorem arr8 (c : Dev nD) :
    ((dat1 (F := Ideal) V c).arrAt 8 cfg1.N : Arr 4096 128)
      = headR (addRow (mm (V c main_arg0 : Arr 4096 4096) (mm (V c main_call0_v0 : Arr 4096 256) (V c main_arg4 : Arr 256 256)))
            (V c main_arg5 : Arr 1 256))
          (V c main_arg6 : Arr 4096 256) (V c main_call0_v5 : Arr 256 128) (V c main_call0_v10 : Arr 256 128)
          (V c main_call0_v17 : Arr 1 128) :=
  (dat1 (F := Ideal) V c).arrAt_eq_of_cover 8 (G V c) (fun t _ => writes_back V c t) rows_covered

end Cert.ReferenceIdeal.Reg1

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«149869_g2000004181024809_pallasbulk_469_2_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.RHost.lean ====
import proofs.«149869_g2000004181024809_pallasbulk_469_2_alg».proof.Proof.Gen.ReferenceIdeal.Frame
import proofs.«149869_g2000004181024809_pallasbulk_469_2_alg».proof.Proof.Spec
import proofs.«149869_g2000004181024809_pallasbulk_469_2_alg».proof.Proof.LibScatterSet
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

open scoped BigOperators

open Idealize.ShloMosaic Idealize.ShloMosaic.TcCoe Idealize.SL.Sem
open Idealize.ShloMosaic.Pipeline (Dat)
open Idealize.ShloMosaic.ValueIdx

namespace Cert.ReferenceIdeal.HostVal
open Cert.ReferenceIdeal Cert.ReferenceIdeal.Gen Cert.Spec
open Idealize.ShloMosaic.ScatterSet

/-! ## The two set-shapes of the stretch, over any prototype array

Both are a scatter whose body returns the update, into an array of zeros, at the start index zero: a block of 64
columns of a [256, 128] array, and a segment of 64 entries of the one row of a [1, 128] array. Inside the written
window the result is the update's entry. -/

/-- `zeros([256, 128]).at[:, 0:64].set(P[:, o:o+256]ᵀ)` at (h, j) with j < 64 is P at (j, o + h): the scatter lands
    there, the update is the transpose of the slice, and the slice starts at column `o`. -/
theorem colSet_apply (P : FVec Ideal S64x512 .f32) (o : Nat) (hs : S64x512.Slices ![0, o] S64x256)
    (h : Fin 256) (j : Fin 128) (hj : j.val < 64) (q : Fin 512) (hq : q.val = o + h.val) :
    Host.scatter scatter_S256x128_S1_S256x64_01_n_1_0 (fun _ b => b)
        (broadcastInDim S256x128 ![] bcast_S_S256x128 (constant (F := Ideal) S_ .f32 0x00000000#32))
        (broadcastInDim S1 ![] bcast_S_S1 (constantI S_ 32 0#32))
        (transpose S256x64 [1, 0] (extractStridedSlice S64x256 ![0, o] P hs) transposes_S64x256_S256x64_1_0)
        (ix2 h j)
      = P (ix2 ⟨j.val, hj⟩ q) := by
  have hd : scatter_S256x128_S1_S256x64_01_n_1_0
      = colBlockDims 256 128 64 scatter_S256x128_S1_S256x64_01_n_1_0_wf := rfl
  rw [hd]
  refine (colBlockSet_apply scatter_S256x128_S1_S256x64_01_n_1_0_wf _ _ _ 0 ?_ h j).trans ?_
  · -- the start column is the zero word
    rfl
  · rw [dif_pos ⟨Nat.zero_le _, by omega⟩]
    refine (transpose_ix2_apply _ transposes_S64x256_S256x64_1_0 _ _).trans ?_
    refine extractStridedSlice_apply ![0, o] P hs _ _ fun a => ?_
    match a with
    | ⟨0, _⟩ => show j.val = 0 + (j.val - 0); omega
    | ⟨1, _⟩ => exact hq

/-- `zeros([1, 128]).at[0, 0:64].set(sum(P², axis=1))` at (0, j) with j < 64 is the squared norm of row j of P: the
    scatter lands there, and the update is zero plus the sum over the row of the squares. -/
theorem rowSet_apply (P : FVec Ideal S64x512 .f32) (j : Fin 128) (hj : j.val < 64) :
    Host.scatter scatter_S1x128_S2_S64_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (Host.reduceAdd (F := Ideal) (mulf P P) (constant (F := Ideal) S_ .f32 0x00000000#32)
          reducesTo_S64x512_S64_d1 h_S_)
        (ix2 0 j)
      = pnorm (P : Arr 64 512) ⟨j.val, hj⟩ := by
  have hd : scatter_S1x128_S2_S64_0_0_01_0 = rowSegDims 1 128 64 scatter_S1x128_S2_S64_0_0_01_0_wf := rfl
  rw [hd]
  refine (rowSegSet_apply scatter_S1x128_S2_S64_0_0_01_0_wf _ _ _ 0 0 ?_ ?_ 0 j).trans ?_
  · -- the row index is the first piece of the pair: the zero word
    refine (congrArg BitVec.toInt (concatenate_pair_apply_left (0 : Fin S2.rank) _ _ concatenates_S1_S1_S2_d0
      (ix1 0) rfl (ix1 0) fun b => ?_)).trans rfl
    match b with
    | ⟨0, _⟩ => rfl
  · -- the start column is the second piece of the pair: the zero word
    refine (congrArg BitVec.toInt (concatenate_pair_apply_right (0 : Fin S2.rank) _ _ concatenates_S1_S1_S2_d0
      (ix1 1) rfl rfl (ix1 0) (fun b hb => ?_) rfl)).trans rfl
    match b with
    | ⟨0, _⟩ => exact absurd rfl hb
  · rw [dif_pos ⟨rfl, Nat.zero_le _, by omega⟩]
    have hr : S64x512.Reduces [1] S64 := by decide
    refine (Ideal.hostReduceAdd_single reducesTo_S64x512_S64_d1 hr (mulf P P) _ _).trans ?_
    rw [show constant (F := Ideal) S_ .f32 0x00000000#32 (Shape.Idx.first h_S_) = 0 from Ideal.ofBits_zero_f32,
      zero_add]
    unfold pnorm
    refine Finset.sum_congr rfl fun k _ => ?_
    have hk : hr.lift (ix1 ⟨j.val - 0, by omega⟩) k = ix2 ⟨j.val, hj⟩ k := by
      funext a
      match a with
      | ⟨0, _⟩ => exact Fin.ext (Nat.sub_zero _)
      | ⟨1, _⟩ => exact Fin.ext rfl
    rw [hk]
    rfl

/-! ## Contents at a typed reference

A host operation's function takes and returns contents at the value's type; the buffers hold contents at the
reference's type. The two types are equal, and the transport between them is the identity. -/

/-- Contents written at a reference whose type is the value's own are the value. -/
theorem toBuf_self {Val : EltTy → Type} (r : Ref sig .tc) (h1 : r.ty = r.ty) (h2 h3) (v : r.ty.Contents Val) :
    (StableHlo.TRef.of r h1 h2 h3 : StableHlo.TRef sig r.ty).toBuf v = v := rfl

/-- Contents written at a typed reference and read back are unchanged. -/
theorem ofBuf_toBuf {Val : EltTy → Type} {T : BufTy} (x : StableHlo.TRef sig T) (v : T.Contents Val) :
    x.ofBuf (x.toBuf v) = v := by
  obtain ⟨r, h, _, _⟩ := x
  subst h
  rfl

variable (m : (ℓ : Loc nD τ sig) → Buf (Elt Ideal) ℓ) (ρ : Dev nD → PrngReg)

/-! ## The stretch's three arrays as terms over what the first launch left -/

/-- The prototypes as the stretch reads them. -/
abbrev protoAt (c : Dev nD) : FVec Ideal S64x512 .f32 :=
  (StableHlo.TRef.of main_arg7 : StableHlo.TRef sig ⟨S64x512, .f32⟩).ofBuf (W1 m ρ c (Proc.devRef .tc main_arg7))

/-- The first launch does not write the prototypes: the stretch reads them as launched. -/
theorem protoAt_eq (c : Dev nD) : protoAt m ρ c = m ((c : Thread nD τ).loc main_arg7) :=
  (congrArg (StableHlo.TRef.ofBuf (StableHlo.TRef.of main_arg7 : StableHlo.TRef sig ⟨S64x512, .f32⟩))
    (W1_of_ne m ρ c main_arg7 (by decide))).trans rfl

/-- The zero array with the transposed first half of the prototypes set into its first 64 columns. -/
theorem ph_term (c : Dev nD) (i : S256x128.Idx) :
    (V2 m ρ c main_call0_v5 : S256x128.Idx → EReal) i
      = Host.scatter scatter_S256x128_S1_S256x64_01_n_1_0 (fun _ b => b)
          (broadcastInDim S256x128 ![] bcast_S_S256x128 (constant (F := Ideal) S_ .f32 0x00000000#32))
          (broadcastInDim S1 ![] bcast_S_S1 (constantI S_ 32 0#32))
          (transpose S256x64 [1, 0] (extractStridedSlice S64x256 ![0, 0] (protoAt m ρ c) slices_S64x512_S64x256_0_0)
            transposes_S64x256_S256x64_1_0) i := by
  dsimp only [V2, W2, hostOps1]
  after_results
  refine (congrFun (toBuf_self main_call0_v5 _ _ _ _) i).trans ?_
  repeat rw [ofBuf_toBuf]

/-- The zero array with the transposed second half of the prototypes set into its first 64 columns. -/
theorem pe_term (c : Dev nD) (i : S256x128.Idx) :
    (V2 m ρ c main_call0_v10 : S256x128.Idx → EReal) i
      = Host.scatter scatter_S256x128_S1_S256x64_01_n_1_0 (fun _ b => b)
          (broadcastInDim S256x128 ![] bcast_S_S256x128 (constant (F := Ideal) S_ .f32 0x00000000#32))
          (broadcastInDim S1 ![] bcast_S_S1 (constantI S_ 32 0#32))
          (transpose S256x64 [1, 0] (extractStridedSlice S64x256 ![0, 256] (protoAt m ρ c) slices_S64x512_S64x256_0_256)
            transposes_S64x256_S256x64_1_0) i := by
  dsimp only [V2, W2, hostOps1]
  after_results
  refine (congrFun (toBuf_self main_call0_v10 _ _ _ _) i).trans ?_
  repeat rw [ofBuf_toBuf]

/-- The zero row with the prototypes' squared norms set into its first 64 entries. -/
theorem pn_term (c : Dev nD) (i : S1x128.Idx) :
    (V2 m ρ c main_call0_v17 : S1x128.Idx → EReal) i
      = Host.scatter scatter_S1x128_S2_S64_0_0_01_0 (fun _ b => b)
          (broadcastInDim S1x128 ![] bcast_S_S1x128 (constant (F := Ideal) S_ .f32 0x00000000#32))
          (concatenate S2 0 [⟨S1, broadcastInDim S1 ![] bcast_S_S1 (constantI S_ 32 0#32)⟩,
            ⟨S1, broadcastInDim S1 ![] bcast_S_S1 (constantI S_ 32 0#32)⟩] concatenates_S1_S1_S2_d0)
          (Host.reduceAdd (F := Ideal) (mulf (protoAt m ρ c) (protoAt m ρ c))
            (constant (F := Ideal) S_ .f32 0x00000000#32) reducesTo_S64x512_S64_d1 h_S_) i := by
  dsimp only [V2, W2, hostOps1]
  after_results
  refine (congrFun (toBuf_self main_call0_v17 _ _ _ _) i).trans ?_
  repeat rw [ofBuf_toBuf]

/-! ## The three arrays at an index, and the arrays the stretch leaves alone -/

/-- Column j < 64 of the zero array with the transposed first half of the prototypes set into its first 64
    columns: entry (h, j) is prototype j's entry h. -/
theorem ph_apply (c : Dev nD) (h : Fin 256) (j : Fin 128) (hj : j.val < 64) :
    (V2 m ρ c main_call0_v5 : Arr 256 128) (ix2 h j)
      = (m ((c : Thread nD τ).loc main_arg7) : Arr 64 512) (ix2 ⟨j.val, hj⟩ ⟨h.val, by omega⟩) := by
  refine (ph_term m ρ c (ix2 h j)).trans ?_
  refine (colSet_apply (protoAt m ρ c) 0 slices_S64x512_S64x256_0_0 h j hj ⟨h.val, by omega⟩
    (Nat.zero_add _).symm).trans ?_
  exact congrFun (protoAt_eq m ρ c) _

/-- The same for the second half: entry (h, j) is prototype j's entry 256 + h. -/
theorem pe_apply (c : Dev nD) (h : Fin 256) (j : Fin 128) (hj : j.val < 64) :
    (V2 m ρ c main_call0_v10 : Arr 256 128) (ix2 h j)
      = (m ((c : Thread nD τ).loc main_arg7) : Arr 64 512) (ix2 ⟨j.val, hj⟩ ⟨256 + h.val, by omega⟩) := by
  refine (pe_term m ρ c (ix2 h j)).trans ?_
  refine (colSet_apply (protoAt m ρ c) 256 slices_S64x512_S64x256_0_256 h j hj ⟨256 + h.val, by omega⟩ rfl).trans ?_
  exact congrFun (protoAt_eq m ρ c) _

/-- Entry j < 64 of the zero row with the squared prototype norms set into its first 64 entries. -/
theorem pn_apply (c : Dev nD) (j : Fin 128) (hj : j.val < 64) :
    (V2 m ρ c main_call0_v17 : Arr 1 128) (ix2 0 j)
      = pnorm (m ((c : Thread nD τ).loc main_arg7) : Arr 64 512) ⟨j.val, hj⟩ := by
  refine (pn_term m ρ c (ix2 0 j)).trans ?_
  refine (rowSet_apply (protoAt m ρ c) j hj).trans ?_
  rw [protoAt_eq m ρ c]

/-- What the second launch finds in an array the host stretch between the launches does not write is what the first
    launch left there. -/
theorem keep (c : Dev nD) (b : Ref sig .tc)
    (hb : b = main_arg0 ∨ b = main_arg4 ∨ b = main_arg5 ∨ b = main_arg6 ∨ b = main_call0_v0) :
    V2 m ρ c b = V1 m ρ c b := by
  rcases hb with rfl | rfl | rfl | rfl | rfl
  all_goals
    exact StableHlo.after_of_forall_not_mem (b := Proc.devRef .tc _) _ _ (List.forall_iff_forall_mem.mp (by
      simp only [hostOps1, List.Forall, StableHlo.nullary_writes, StableHlo.unary_writes, StableHlo.binary_writes,
        StableHlo.ternary_writes, Finset.mem_singleton]
      repeat' apply And.intro
      all_goals exact StableHlo.devRef_ne_of_ne (by decide)))

end Cert.ReferenceIdeal.HostVal

end
-- ==== Proof.RValue.lean ====
/-
  The second program's result as one function of its argument arrays.

  Its first launch leaves the rectified first layer relu(A · (X · W0) + b0); host operations then build the zero-padded
  transposed prototype halves and norms; its second launch reads all of these and leaves the padded head; a final slice
  keeps the first 64 columns. What the second launch finds in an array is what the first launch or the host operations
  left there, or the argument itself.
-/
import proofs.«149869_g2000004181024809_pallasbulk_469_2_alg».proof.Proof.Gen.ReferenceIdeal.Frame
import proofs.«149869_g2000004181024809_pallasbulk_469_2_alg».proof.Proof.Spec
import proofs.«149869_g2000004181024809_pallasbulk_469_2_alg».proof.Proof.SpecAlg
import proofs.«149869_g2000004181024809_pallasbulk_469_2_alg».proof.Proof.RReg0
import proofs.«149869_g2000004181024809_pallasbulk_469_2_alg».proof.Proof.RReg1
import proofs.«149869_g2000004181024809_pallasbulk_469_2_alg».proof.Proof.RHost
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.ReferenceIdeal.Chain

open Cert.ReferenceIdeal Cert.ReferenceIdeal.Gen Cert.Spec

variable (m : (ℓ : Loc nD τ sig) → Buf (Elt Ideal) ℓ) (ρ : Dev nD → PrngReg)

/-- The argument arrays as launched. -/
abbrev aA (c : Dev nD) : Arr 4096 4096 := m ((c : Thread nD τ).loc main_arg0)
abbrev aX (c : Dev nD) : Arr 4096 128 := m ((c : Thread nD τ).loc main_arg1)
abbrev aW0 (c : Dev nD) : Arr 128 256 := m ((c : Thread nD τ).loc main_arg2)
abbrev ab0 (c : Dev nD) : Arr 1 256 := m ((c : Thread nD τ).loc main_arg3)
abbrev aW1 (c : Dev nD) : Arr 256 256 := m ((c : Thread nD τ).loc main_arg4)
abbrev ab1 (c : Dev nD) : Arr 1 256 := m ((c : Thread nD τ).loc main_arg5)
abbrev aE (c : Dev nD) : Arr 4096 256 := m ((c : Thread nD τ).loc main_arg6)
abbrev aP (c : Dev nD) : Arr 64 512 := m ((c : Thread nD τ).loc main_arg7)

/-- The zero-padded transposed prototype halves and norms, as the host operations leave them. -/
abbrev hPH (c : Dev nD) : Arr 256 128 := V2 m ρ c main_call0_v5
abbrev hPE (c : Dev nD) : Arr 256 128 := V2 m ρ c main_call0_v10
abbrev hPN (c : Dev nD) : Arr 1 128 := V2 m ρ c main_call0_v17

/-! ## What the second launch finds -/

theorem V2_A (c : Dev nD) : (V2 m ρ c main_arg0 : Arr 4096 4096) = aA m c :=
  (HostVal.keep m ρ c main_arg0 (.inl rfl)).trans
    ((W1_arr m ρ c 0).trans (((dat0 (V0 m ρ) c).arrAt_in 0 rfl _).trans (A_eq0 (V0 m ρ) c 0)))

theorem V2_W1 (c : Dev nD) : (V2 m ρ c main_arg4 : Arr 256 256) = aW1 m c :=
  (HostVal.keep m ρ c main_arg4 (.inr (.inl rfl))).trans (W1_of_ne m ρ c main_arg4 (by decide))

theorem V2_b1 (c : Dev nD) : (V2 m ρ c main_arg5 : Arr 1 256) = ab1 m c :=
  (HostVal.keep m ρ c main_arg5 (.inr (.inr (.inl rfl)))).trans (W1_of_ne m ρ c main_arg5 (by decide))

theorem V2_E (c : Dev nD) : (V2 m ρ c main_arg6 : Arr 4096 256) = aE m c :=
  (HostVal.keep m ρ c main_arg6 (.inr (.inr (.inr (.inl rfl))))).trans (W1_of_ne m ρ c main_arg6 (by decide))

/-- The first launch's result: relu(A · (X · W0) + b0). -/
theorem V2_H1 (c : Dev nD) :
    (V2 m ρ c main_call0_v0 : Arr 4096 256) = relu (addRow (mm (aA m c) (mm (aX m c) (aW0 m c))) (ab0 m c)) := by
  refine (HostVal.keep m ρ c main_call0_v0 (.inr (.inr (.inr (.inr rfl))))).trans ?_
  refine (W1_arr m ρ c 4).trans ?_
  rw [Reg0.arr4 (V0 m ρ) c]

/-! ## The padded head, and the slice -/

/-- The second launch's result: the head over the second layer and the embedding, side by side. -/
theorem padded (c : Dev nD) :
    (W3 m ρ c (Proc.devRef .tc main_call0_v18) : Arr 4096 128)
      = headR (hidden2 (aA m c) (aX m c) (aW0 m c) (ab0 m c) (aW1 m c) (ab1 m c)) (aE m c) (hPH m ρ c) (hPE m ρ c)
          (hPN m ρ c) := by
  refine (W3_arr m ρ c 8).trans ?_
  rw [Reg1.arr8 (V2 m ρ) c, V2_A m ρ c, V2_H1 m ρ c, V2_W1 m ρ c, V2_b1 m ρ c, V2_E m ρ c]
  rfl

/-- The result array: column j < 64 of the padded head. -/
theorem result (c : Dev nD) (n : Fin 4096) (j : Fin 64) :
    (W4 m ρ c (Proc.devRef .tc main_v0) : Arr 4096 64) (ix2 n j)
      = headR (hidden2 (aA m c) (aX m c) (aW0 m c) (ab0 m c) (aW1 m c) (ab1 m c)) (aE m c) (hPH m ρ c) (hPE m ρ c)
          (hPN m ρ c) (ix2 n ⟨j.val, by omega⟩) := by
  rw [← padded m ρ c]
  have e : (W4 m ρ c (Proc.devRef .tc main_v0) : Arr 4096 64)
      = extractStridedSlice S4096x64 ![0, 0] (W3 m ρ c (Proc.devRef .tc main_call0_v18) : Arr 4096 128)
          slices_S4096x128_S4096x64_0_0 := by
    show StableHlo.after hostOps2 (W3 m ρ c) (Proc.devRef .tc main_v0) = _
    after_results
    rfl
  rw [e]
  refine extractStridedSlice_apply _ _ _ _ _ fun a => ?_
  match a with
  | ⟨0, _⟩ => simp
  | ⟨1, _⟩ => simp

end Cert.ReferenceIdeal.Chain

end
-- ==== Proof.lean ====
/-
  A two-layer graph convolution with a prototype-distance head, computed by two programs.

  Both compute H2 = A · (relu(A · (X · W0) + b0) · W1) + b1 and then, for node n and class c < 64,
      out[n, c] = −|concat(H2_n, E_n) − proto_c|² = 2·(H2_n · ph_c + E_n · pe_c) − (|H2_n|² + |E_n|²) − |proto_c|²,
  where ph_c and pe_c are the two halves of prototype c. One program folds the terms that do not depend on H2 into a
  per-row constant first, (2·H2_n·ph_c − |H2_n|²) + ((2·E_n·pe_c − |E_n|²) − |proto_c|²); the other keeps the halves
  side by side. Over the extended reals the two groupings agree where every quantity is a real number, which the
  precondition (every input entry finite) gives: sums, products and maxima of real numbers are real. The padded
  columns c ≥ 64 differ in how the two programs fill them and are sliced away by both.
-/
import proofs.«149869_g2000004181024809_pallasbulk_469_2_alg».proof.Defs
import proofs.«149869_g2000004181024809_pallasbulk_469_2_alg».proof.Proof.Gen.Kernel
import proofs.«149869_g2000004181024809_pallasbulk_469_2_alg».proof.Proof.Gen.Kernel.Frame
import proofs.«149869_g2000004181024809_pallasbulk_469_2_alg».proof.Proof.Gen.KernelIdeal
import proofs.«149869_g2000004181024809_pallasbulk_469_2_alg».proof.Proof.Gen.KernelIdeal.Frame
import proofs.«149869_g2000004181024809_pallasbulk_469_2_alg».proof.Proof.Gen.ReferenceIdeal
import proofs.«149869_g2000004181024809_pallasbulk_469_2_alg».proof.Proof.Gen.ReferenceIdeal.Frame
import proofs.«149869_g2000004181024809_pallasbulk_469_2_alg».proof.Proof.Gen.Pre_finite_inputs
import proofs.«149869_g2000004181024809_pallasbulk_469_2_alg».proof.Proof.SpecAlg
import proofs.«149869_g2000004181024809_pallasbulk_469_2_alg».proof.Proof.Finite
import proofs.«149869_g2000004181024809_pallasbulk_469_2_alg».proof.Proof.KRun
import proofs.«149869_g2000004181024809_pallasbulk_469_2_alg».proof.Proof.RRun
import proofs.«149869_g2000004181024809_pallasbulk_469_2_alg».proof.Proof.KValue
import proofs.«149869_g2000004181024809_pallasbulk_469_2_alg».proof.Proof.RValue
import proofs.«149869_g2000004181024809_pallasbulk_469_2_alg».proof.Proof.KHost
import proofs.«149869_g2000004181024809_pallasbulk_469_2_alg».proof.Proof.RHost

noncomputable section

namespace Cert.Proof

open Idealize.ShloMosaic Idealize.ShloMosaic.TcCoe Idealize.SL.Sem
open Idealize.ShloMosaic.ValueIdx
open Cert.Spec

/-- The three programs run, and their argument arrays end unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the arguments, and arguments all of whose entries are real, the two programs' result
    arrays agree entry by entry: the heads are two groupings of one real expression (`head_eq`). -/
theorem results_agree
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg) (c : Dev Cert.KernelIdeal.nD)
    (e0 : Cert.ReferenceIdeal.Chain.aA m' c = Cert.KernelIdeal.Chain.aA m c)
    (e1 : Cert.ReferenceIdeal.Chain.aX m' c = Cert.KernelIdeal.Chain.aX m c)
    (e2 : Cert.ReferenceIdeal.Chain.aW0 m' c = Cert.KernelIdeal.Chain.aW0 m c)
    (e3 : Cert.ReferenceIdeal.Chain.ab0 m' c = Cert.KernelIdeal.Chain.ab0 m c)
    (e4 : Cert.ReferenceIdeal.Chain.aW1 m' c = Cert.KernelIdeal.Chain.aW1 m c)
    (e5 : Cert.ReferenceIdeal.Chain.ab1 m' c = Cert.KernelIdeal.Chain.ab1 m c)
    (e6 : Cert.ReferenceIdeal.Chain.aE m' c = Cert.KernelIdeal.Chain.aE m c)
    (e7 : Cert.ReferenceIdeal.Chain.aP m' c = Cert.KernelIdeal.Chain.aP m c)
    (f0 : AllR (Cert.KernelIdeal.Chain.aA m c)) (f1 : AllR (Cert.KernelIdeal.Chain.aX m c))
    (f2 : AllR (Cert.KernelIdeal.Chain.aW0 m c)) (f3 : AllR (Cert.KernelIdeal.Chain.ab0 m c))
    (f4 : AllR (Cert.KernelIdeal.Chain.aW1 m c)) (f5 : AllR (Cert.KernelIdeal.Chain.ab1 m c))
    (f6 : AllR (Cert.KernelIdeal.Chain.aE m c)) (f7 : AllR (Cert.KernelIdeal.Chain.aP m c)) :
    (Cert.ReferenceIdeal.Gen.W4 m' ρ' c (Proc.devRef .tc Cert.ReferenceIdeal.main_v0) : Arr 4096 64)
      = (Cert.KernelIdeal.Gen.W5 m ρ c (Proc.devRef .tc Cert.KernelIdeal.main_v0) : Arr 4096 64) := by
  funext i
  obtain ⟨n, j, rfl⟩ : ∃ (n : Fin 4096) (j : Fin 64), i = ix2 n j := ⟨row i, col i, eq_ix2 i⟩
  rw [Cert.ReferenceIdeal.Chain.result m' ρ' c n j, Cert.KernelIdeal.Chain.result m ρ c n j, e0, e1, e2, e3, e4, e5, e6]
  have hj : (⟨j.val, by omega⟩ : Fin 128).val < 64 := j.isLt
  -- column j of the second program's prototype arrays, read off the prototypes
  have rPH : ∀ h : Fin 256, Cert.ReferenceIdeal.Chain.hPH m' ρ' c (ix2 h ⟨j.val, by omega⟩)
      = Cert.KernelIdeal.Chain.aP m c (ix2 j ⟨h.val, by omega⟩) := fun h => by
    rw [← e7]; exact Cert.ReferenceIdeal.HostVal.ph_apply m' ρ' c h ⟨j.val, by omega⟩ hj
  have rPE : ∀ h : Fin 256, Cert.ReferenceIdeal.Chain.hPE m' ρ' c (ix2 h ⟨j.val, by omega⟩)
      = Cert.KernelIdeal.Chain.aP m c (ix2 j ⟨256 + h.val, by omega⟩) := fun h => by
    rw [← e7]; exact Cert.ReferenceIdeal.HostVal.pe_apply m' ρ' c h ⟨j.val, by omega⟩ hj
  have rPN : Cert.ReferenceIdeal.Chain.hPN m' ρ' c (ix2 0 ⟨j.val, by omega⟩)
      = pnorm (Cert.KernelIdeal.Chain.aP m c) j := by
    rw [← e7]; exact Cert.ReferenceIdeal.HostVal.pn_apply m' ρ' c ⟨j.val, by omega⟩ hj
  refine (head_eq _ _ _ _ _ _ _ _ n ⟨j.val, by omega⟩ (fun h => ?_) (fun h => ?_) ?_
    (AllR.hidden2 f0 f1 f2 f3 f4 f5) f6 (fun h => ?_) (fun h => ?_) ?_).symm
  · exact (Cert.KernelIdeal.HostVal.ph_apply m ρ c h ⟨j.val, by omega⟩ hj).trans (rPH h).symm
  · exact (Cert.KernelIdeal.HostVal.pe_apply m ρ c h ⟨j.val, by omega⟩ hj).trans (rPE h).symm
  · exact (Cert.KernelIdeal.HostVal.pn_apply m ρ c ⟨j.val, by omega⟩ hj).trans rPN.symm
  · rw [rPH h]; exact f7 _
  · rw [rPE h]; exact f7 _
  · rw [rPN]; exact isR_pnorm f7 j

/-- The idealized kernel and the idealized reference end with equal results. -/
theorem algebraic : Cert.algebraic_KernelIdeal_ReferenceIdeal := by
  intro m ρ m' ρ' hpre hagree
  refine ⟨fun c => Cert.KernelIdeal.Gen.W5 m ρ c (Proc.devRef .tc Cert.KernelIdeal.main_v0),
    Cert.KernelIdeal.Run.run (F := Ideal) m ρ, ?_⟩
  refine (θ_run Cert.ReferenceIdeal.defs _ _).mono (fun r h c => ⟨(h c).1.trans ?_, (h c).2⟩)
    (Cert.ReferenceIdeal.Run.run (F := Ideal) m' ρ')
  obtain ⟨e0, e1, e2, e3, e4, e5, e6, e7⟩ := hagree c
  obtain ⟨f0, f1, f2, f3, f4, f5, f6, f7⟩ := Cert.FiniteInputs.of_pre _ _ _ _ _ _ _ _ (hpre c)
  exact results_agree m ρ m' ρ' c e0 e1 e2 e3 e4 e5 e6 e7 f0 f1 f2 f3 f4 f5 f6 f7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
